-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S500000x256 : Shape := ⟨2, ![500000, 256]⟩
abbrev S500000 : Shape := ⟨1, ![500000]⟩
abbrev S256 : Shape := ⟨1, ![256]⟩
abbrev S256x256 : Shape := ⟨2, ![256, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S500000x256 : S_.BroadcastsInDim S500000x256 (![] : Fin 0 → Fin S500000x256.rank)
  reducesTo_S500000x256_S_d0_1 : S500000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S500000 : S_.BroadcastsInDim S500000 (![] : Fin 0 → Fin S500000.rank)
  reducesTo_S500000_S_d0 : S500000.ReducesTo [0] S_

variable [Facts]

def fn_part3 {F : FTy → Type} [FloatOps F] (main_arg2 : IVec S500000 32) (main_v48 : IVec S_ 1) (main_v50 : IVec S500000 1) : IVec S_ 1 :=
  let main_c_19 : IVec S_ 1 := constantI S_ 1 1#1
  let main_v51 : IVec S_ 1 := (fun x v => Host.reduce IntOp.andi x v reducesTo_S500000_S_d0 h_S_) main_v50 main_c_19
  let main_v52 : IVec S_ 1 := andi main_v48 main_v51
  let main_c_20 : IVec S_ 32 := constantI S_ 32 4096#32
  let main_v53 : IVec S500000 32 := broadcastInDim S500000 ![] bcast_S_S500000 main_c_20
  let main_v54 : IVec S500000 1 := cmpi .slt main_arg2 main_v53
  let main_c_21 : IVec S_ 1 := constantI S_ 1 1#1
  let main_v55 : IVec S_ 1 := (fun x v => Host.reduce IntOp.andi x v reducesTo_S500000_S_d0 h_S_) main_v54 main_c_21
  let main_v56 : IVec S_ 1 := andi main_v52 main_v55
  main_v56

def fn_part2 {F : FTy → Type} [FloatOps F] (main_arg2 : IVec S500000 32) (main_arg10 : FVec F S256 .f32) (main_arg11 : FVec F S256x256 .f32) (main_arg12 : FVec F S256 .f32) (main_v33 : IVec S_ 1) : IVec S_ 1 :=
  let main_v34 : FVec F S256 .f32 := Host.absf main_arg10
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg11
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg12
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_c_18 : IVec S_ 32 := constantI S_ 32 0#32
  let main_v49 : IVec S500000 32 := broadcastInDim S500000 ![] bcast_S_S500000 main_c_18
  let main_v50 : IVec S500000 1 := cmpi .sge main_arg2 main_v49
  fn_part3 (F := F) main_arg2 main_v48 main_v50

def fn_part1 {F : FTy → Type} [FloatOps F] (main_arg2 : IVec S500000 32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg7
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg9
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg10 main_arg11 main_arg12 main_v33

def fn {F : FTy → Type} [FloatOps F] (main_arg0 : FVec F S4096x256 .f32) (main_arg1 : FVec F S500000x256 .f32) (main_arg2 : IVec S500000 32) (main_arg3 : IVec S256 1) (main_arg4 : IVec S500000 1) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S500000x256 .f32 := Host.absf main_arg1
  let main_cst_0 : FVec F S_ .f32 := constant S_ .f32 0x7F800000#32
  let main_v5 : FVec F S500000x256 .f32 := broadcastInDim S500000x256 ![] bcast_S_S500000x256 main_cst_0
  let main_v6 : IVec S500000x256 1 := cmpf .olt main_v4 main_v5
  let main_c_1 : IVec S_ 1 := constantI S_ 1 1#1
  let main_v7 : IVec S_ 1 := (fun x v => Host.reduce IntOp.andi x v reducesTo_S500000x256_S_d0_1 h_S_) main_v6 main_c_1
  let main_v8 : IVec S_ 1 := andi main_v3 main_v7
  let main_v9 : FVec F S256x256 .f32 := Host.absf main_arg5
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg6
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg7 main_arg8 main_arg9 main_arg10 main_arg11 main_arg12 main_v13 main_v16
-- ==== Kernel.lean ====
abbrev S4096x256 : Shape := ⟨2, ![4096, 256]⟩
abbrev S500000x256 : Shape := ⟨2, ![500000, 256]⟩
abbrev S500000 : Shape := ⟨1, ![500000]⟩
abbrev S256 : Shape := ⟨1, ![256]⟩
abbrev S256x256 : Shape := ⟨2, ![256, 256]⟩
abbrev S1x256 : Shape := ⟨2, ![1, 256]⟩
abbrev S_ : Shape := ⟨0, ![]⟩
abbrev S500000x1 : Shape := ⟨2, ![500000, 1]⟩
abbrev S2000x1 : Shape := ⟨2, ![2000, 1]⟩
abbrev S2000x256 : Shape := ⟨2, ![2000, 256]⟩
abbrev S2000 : Shape := ⟨1, ![2000]⟩
abbrev S4096x2000 : Shape := ⟨2, ![4096, 2000]⟩
abbrev S1x2000 : Shape := ⟨2, ![1, 2000]⟩
abbrev S4096 : Shape := ⟨1, ![4096]⟩
abbrev S4096x1 : Shape := ⟨2, ![4096, 1]⟩
abbrev S2000x4096 : Shape := ⟨2, ![2000, 4096]⟩

abbrev nBuf : Space → Nat
  | .hbm => 58
  | .vmem => 12
  | .smem => 0
  | _ => 0

abbrev bufTy : (tb : Table) → Fin (tcTables nBuf tb) → BufTy
  | .hbm, ⟨0, _⟩ => ⟨S4096x256, .f32⟩
  | .hbm, ⟨1, _⟩ => ⟨S500000x256, .f32⟩
  | .hbm, ⟨2, _⟩ => ⟨S500000, .i32⟩
  | .hbm, ⟨3, _⟩ => ⟨S256, .i1⟩
  | .hbm, ⟨4, _⟩ => ⟨S500000, .i1⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S1x256, .i1⟩
  | .hbm, ⟨14, _⟩ => ⟨S_, .f32⟩
  | .hbm, ⟨15, _⟩ => ⟨S_, .f32⟩
  | .hbm, ⟨16, _⟩ => ⟨S4096x256, .i1⟩
  | .hbm, ⟨17, _⟩ => ⟨S4096x256, .f32⟩
  | .hbm, ⟨18, _⟩ => ⟨S4096x256, .f32⟩
  | .hbm, ⟨19, _⟩ => ⟨S500000, .i32⟩
  | .hbm, ⟨20, _⟩ => ⟨S500000x1, .i32⟩
  | .hbm, ⟨21, _⟩ => ⟨S500000x1, .i32⟩
  | .hbm, ⟨22, _⟩ => ⟨S4096x256, .f32⟩
  | .hbm, ⟨23, _⟩ => ⟨S_, .f32⟩
  | .hbm, ⟨24, _⟩ => ⟨S500000, .f32⟩
  | .hbm, ⟨25, _⟩ => ⟨S_, .f32⟩
  | .hbm, ⟨26, _⟩ => ⟨S4096, .f32⟩
  | .hbm, ⟨27, _⟩ => ⟨S500000x1, .i32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1, .f32⟩
  | .hbm, ⟨33, _⟩ => ⟨S4096x256, .f32⟩
  | .hbm, ⟨34, _⟩ => ⟨S4096x256, .f32⟩
  | .hbm, ⟨35, _⟩ => ⟨S256x256, .f32⟩
  | .hbm, ⟨36, _⟩ => ⟨S4096x256, .f32⟩
  | .hbm, ⟨37, _⟩ => ⟨S1x256, .f32⟩
  | .hbm, ⟨38, _⟩ => ⟨S4096x256, .f32⟩
  | .hbm, ⟨39, _⟩ => ⟨S4096x256, .f32⟩
  | .hbm, ⟨40, _⟩ => ⟨S256x256, .f32⟩
  | .hbm, ⟨41, _⟩ => ⟨S4096x256, .f32⟩
  | .hbm, ⟨42, _⟩ => ⟨S1x256, .f32⟩
  | .hbm, ⟨43, _⟩ => ⟨S4096x256, .f32⟩
  | .hbm, ⟨44, _⟩ => ⟨S4096x256, .f32⟩
  | .hbm, ⟨45, _⟩ => ⟨S256x256, .f32⟩
  | .hbm, ⟨46, _⟩ => ⟨S4096x256, .f32⟩
  | .hbm, ⟨47, _⟩ => ⟨S1x256, .f32⟩
  | .hbm, ⟨48, _⟩ => ⟨S4096x256, .f32⟩
  | .hbm, ⟨49, _⟩ => ⟨S4096x256, .f32⟩
  | .hbm, ⟨50, _⟩ => ⟨S256x256, .f32⟩
  | .hbm, ⟨51, _⟩ => ⟨S4096x256, .f32⟩
  | .hbm, ⟨52, _⟩ => ⟨S1x256, .f32⟩
  | .hbm, ⟨53, _⟩ => ⟨S4096x256, .f32⟩
  | .hbm, ⟨54, _⟩ => ⟨S4096x256, .f32⟩
  | .hbm, ⟨55, _⟩ => ⟨S4096x256, .bf16⟩
  | .hbm, ⟨56, _⟩ => ⟨S500000x1, .i32⟩
  | .hbm, ⟨57, _⟩ => ⟨S500000x256, .f32⟩
  | .local _ .vmem, ⟨0, _⟩ => ⟨S2000x1, .i32⟩
  | .local _ .vmem, ⟨1, _⟩ => ⟨S2000x1, .i32⟩
  | .local _ .vmem, ⟨2, _⟩ => ⟨S2000x1, .i32⟩
  | .local _ .vmem, ⟨3, _⟩ => ⟨S2000x1, .i32⟩
  | .local _ .vmem, ⟨4, _⟩ => ⟨S2000x256, .f32⟩
  | .local _ .vmem, ⟨5, _⟩ => ⟨S2000x256, .f32⟩
  | .local _ .vmem, ⟨6, _⟩ => ⟨S4096x256, .f32⟩
  | .local _ .vmem, ⟨7, _⟩ => ⟨S2000x1, .i32⟩
  | .local _ .vmem, ⟨8, _⟩ => ⟨S2000x1, .i32⟩
  | .local _ .vmem, ⟨9, _⟩ => ⟨S4096x256, .bf16⟩
  | .local _ .vmem, ⟨10, _⟩ => ⟨S2000x256, .f32⟩
  | .local _ .vmem, ⟨11, _⟩ => ⟨S2000x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  natLt_1_32 : 1 < 32
  shapeCasts_S500000_S500000x1 : S500000.ShapeCasts S500000x1
  inb_S4096x256_S4096x256_0_0 : ∀ a, (![0, 0] : Fin 2 → Nat) a + S4096x256.size a ≤ S4096x256.size a
  h_S4096x256 : 0 < S4096x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x1_S2000 : S2000x1.ShapeCasts S2000
  inb_S2000x256_S2000x256_0_0 : ∀ a, (![0, 0] : Fin 2 → Nat) a + S2000x256.size a ≤ S2000x256.size a
  h_S2000x256 : 0 < S2000x256.numel
  iota_S4096x2000_d0_w32 : S4096x2000.Iotas .tc 32 [0]
  shapeCasts_S2000_S1x2000 : S2000.ShapeCasts S1x2000
  broadcasts_S1x2000_S4096x2000 : S1x2000.Broadcasts S4096x2000
  bitsLt_bf16_f32 : FTy.bits .bf16 < FTy.bits .f32
  shapeCasts_S4096x256_S4096x256 : S4096x256.ShapeCasts S4096x256
  bcast_S_S500000 : S_.BroadcastsInDim S500000 (![] : Fin 0 → Fin S500000.rank)
  bcast_S_S4096 : S_.BroadcastsInDim S4096 (![] : Fin 0 → Fin S4096.rank)
  bcast_S500000_S500000x1_0 : S500000.BroadcastsInDim S500000x1 (![0] : Fin 1 → Fin S500000x1.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  transposes_S256x256_S256x256_1_0 : S256x256.Transposes [1, 0] S256x256
  iota_S2000x4096_d1_w32 : S2000x4096.Iotas .tc 32 [1]
  shapeCasts_S2000_S2000x1 : S2000.ShapeCasts S2000x1
  broadcasts_S2000x1_S2000x4096 : S2000x1.Broadcasts S2000x4096
  dot_S4096x2000_S2000x256_S4096x256_1_0_0_1_n_n_wf : DotDims.WF S4096x2000 S2000x256 S4096x256 [1] [0] [0] [1] [] []
  scatter_S4096_S500000x1_S500000_n_0_0_1_wf : ScatterDims.WF S4096 S500000x1 S500000 [] [0] [0] 1
  dot_S4096x256_S256x256_S4096x256_1_0_0_1_n_n_wf : DotDims.WF S4096x256 S256x256 S4096x256 [1] [0] [0] [1] [] []
  dot_S2000x4096_S4096x256_S2000x256_1_0_0_1_n_n_wf : DotDims.WF S2000x4096 S4096x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S500000x1.size a
  hwx0_0 : ∀ i : grid0.Coords, EltTy.bits .i32 = 32 ∨ (Rect.block (s := S500000x1) S2000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S500000x1.size a
  hwx0_1 : ∀ i : grid0.Coords, EltTy.bits .i32 = 32 ∨ (Rect.block (s := S500000x1) S2000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S500000x256.size a
  hwx0_2 : ∀ i : grid0.Coords, EltTy.bits .f32 = 32 ∨ (Rect.block (s := S500000x256) S2000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x256.size a
  hwx0_3 : ∀ i : grid0.Coords, EltTy.bits .f32 = 32 ∨ (Rect.block (s := S4096x256) S4096x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1.size a ≤ S500000x1.size a
  hwx1_0 : ∀ i : grid1.Coords, EltTy.bits .i32 = 32 ∨ (Rect.block (s := S500000x1) S2000x1.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S500000x256.size a
  hwx1_2 : ∀ i : grid1.Coords, EltTy.bits .f32 = 32 ∨ (Rect.block (s := S500000x256) S2000x256.size (cc1_transform_2 i) (hinb1_2 i)).WholeWords (EltTy.packing .f32)

variable [Facts₀]

def dot_S4096x2000_S2000x256_S4096x256_1_0_0_1_n_n : DotDims S4096x2000 S2000x256 S4096x256 where
  lhsContracting := [1]
  rhsContracting := [0]
  lhsNonContracting := [0]
  rhsNonContracting := [1]
  lhsBatch := []
  rhsBatch := []
  wf := dot_S4096x2000_S2000x256_S4096x256_1_0_0_1_n_n_wf
def scatter_S4096_S500000x1_S500000_n_0_0_1 : ScatterDims S4096 S500000x1 S500000 where
  updateWindowDims := []
  insertedWindowDims := [0]
  scatterDimsToOperandDims := [0]
  indexVectorDim := 1
  wf := scatter_S4096_S500000x1_S500000_n_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S2000x4096_S4096x256_S2000x256_1_0_0_1_n_n : DotDims S2000x4096 S4096x256 S2000x256 where
  lhsContracting := [1]
  rhsContracting := [0]
  lhsNonContracting := [0]
  rhsNonContracting := [1]
  lhsBatch := []
  rhsBatch := []
  wf := dot_S2000x4096_S4096x256_S2000x256_1_0_0_1_n_n_wf

abbrev win0_0 : Pipeline.Window sig grid0 :=
  Pipeline.Window.ofSpec (Memref.whole main_v3) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x256.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S2000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x256 : Shape := ⟨2, ![4096, 256]⟩
abbrev S500000x256 : Shape := ⟨2, ![500000, 256]⟩
abbrev S500000 : Shape := ⟨1, ![500000]⟩
abbrev S256 : Shape := ⟨1, ![256]⟩
abbrev S256x256 : Shape := ⟨2, ![256, 256]⟩
abbrev S1x256 : Shape := ⟨2, ![1, 256]⟩
abbrev S_ : Shape := ⟨0, ![]⟩
abbrev S500000x1 : Shape := ⟨2, ![500000, 1]⟩
abbrev S4096 : Shape := ⟨1, ![4096]⟩
abbrev S4096x1 : Shape := ⟨2, ![4096, 1]⟩

abbrev nBuf : Space → Nat
  | .hbm => 70
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S500000x256, .f32⟩
  | .hbm, ⟨2, _⟩ => ⟨S500000, .i32⟩
  | .hbm, ⟨3, _⟩ => ⟨S256, .i1⟩
  | .hbm, ⟨4, _⟩ => ⟨S500000, .i1⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S1x256, .i1⟩
  | .hbm, ⟨14, _⟩ => ⟨S_, .f32⟩
  | .hbm, ⟨15, _⟩ => ⟨S_, .f32⟩
  | .hbm, ⟨16, _⟩ => ⟨S4096x256, .i1⟩
  | .hbm, ⟨17, _⟩ => ⟨S4096x256, .f32⟩
  | .hbm, ⟨18, _⟩ => ⟨S4096x256, .f32⟩
  | .hbm, ⟨19, _⟩ => ⟨S500000x1, .i1⟩
  | .hbm, ⟨20, _⟩ => ⟨S_, .f32⟩
  | .hbm, ⟨21, _⟩ => ⟨S_, .f32⟩
  | .hbm, ⟨22, _⟩ => ⟨S500000x256, .i1⟩
  | .hbm, ⟨23, _⟩ => ⟨S500000x256, .f32⟩
  | .hbm, ⟨24, _⟩ => ⟨S500000x256, .f32⟩
  | .hbm, ⟨25, _⟩ => ⟨S_, .f32⟩
  | .hbm, ⟨26, _⟩ => ⟨S4096x256, .f32⟩
  | .hbm, ⟨27, _⟩ => ⟨S500000x1, .i32⟩
  | .hbm, ⟨28, _⟩ => ⟨S4096x256, .f32⟩
  | .hbm, ⟨29, _⟩ => ⟨S_, .f32⟩
  | .hbm, ⟨30, _⟩ => ⟨S500000, .f32⟩
  | .hbm, ⟨31, _⟩ => ⟨S_, .f32⟩
  | .hbm, ⟨32, _⟩ => ⟨S4096, .f32⟩
  | .hbm, ⟨33, _⟩ => ⟨S500000x1, .i32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096x1, .f32⟩
  | .hbm, ⟨39, _⟩ => ⟨S4096x256, .f32⟩
  | .hbm, ⟨40, _⟩ => ⟨S4096x256, .f32⟩
  | .hbm, ⟨41, _⟩ => ⟨S256x256, .f32⟩
  | .hbm, ⟨42, _⟩ => ⟨S4096x256, .f32⟩
  | .hbm, ⟨43, _⟩ => ⟨S1x256, .f32⟩
  | .hbm, ⟨44, _⟩ => ⟨S4096x256, .f32⟩
  | .hbm, ⟨45, _⟩ => ⟨S4096x256, .f32⟩
  | .hbm, ⟨46, _⟩ => ⟨S256x256, .f32⟩
  | .hbm, ⟨47, _⟩ => ⟨S4096x256, .f32⟩
  | .hbm, ⟨48, _⟩ => ⟨S1x256, .f32⟩
  | .hbm, ⟨49, _⟩ => ⟨S4096x256, .f32⟩
  | .hbm, ⟨50, _⟩ => ⟨S4096x256, .f32⟩
  | .hbm, ⟨51, _⟩ => ⟨S256x256, .f32⟩
  | .hbm, ⟨52, _⟩ => ⟨S4096x256, .f32⟩
  | .hbm, ⟨53, _⟩ => ⟨S1x256, .f32⟩
  | .hbm, ⟨54, _⟩ => ⟨S4096x256, .f32⟩
  | .hbm, ⟨55, _⟩ => ⟨S4096x256, .f32⟩
  | .hbm, ⟨56, _⟩ => ⟨S256x256, .f32⟩
  | .hbm, ⟨57, _⟩ => ⟨S4096x256, .f32⟩
  | .hbm, ⟨58, _⟩ => ⟨S1x256, .f32⟩
  | .hbm, ⟨59, _⟩ => ⟨S4096x256, .f32⟩
  | .hbm, ⟨60, _⟩ => ⟨S4096x256, .f32⟩
  | .hbm, ⟨61, _⟩ => ⟨S_, .i32⟩
  | .hbm, ⟨62, _⟩ => ⟨S500000, .i32⟩
  | .hbm, ⟨63, _⟩ => ⟨S500000, .i1⟩
  | .hbm, ⟨64, _⟩ => ⟨S_, .i32⟩
  | .hbm, ⟨65, _⟩ => ⟨S500000, .i32⟩
  | .hbm, ⟨66, _⟩ => ⟨S500000, .i32⟩
  | .hbm, ⟨67, _⟩ => ⟨S500000, .i32⟩
  | .hbm, ⟨68, _⟩ => ⟨S500000x1, .i32⟩
  | .hbm, ⟨69, _⟩ => ⟨S500000x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v3 : Ref sig .tc := ⟨.hbm, 24, rfl⟩
abbrev main_cst_1 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_2 : Ref sig .tc := ⟨.hbm, 29, rfl⟩
abbrev main_v7 : Ref sig .tc := ⟨.hbm, 30, rfl⟩
abbrev main_cst_3 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_4 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c : Ref sig .tc := ⟨.hbm, 61, rfl⟩
abbrev main_v36 : Ref sig .tc := ⟨.hbm, 62, rfl⟩
abbrev main_v37 : Ref sig .tc := ⟨.hbm, 63, rfl⟩
abbrev main_c_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S500000_S500000x1_0 : S500000.BroadcastsInDim S500000x1 (![0] : Fin 1 → Fin S500000x1.rank)
  bcast_S500000x1_S500000x256_0_1 : S500000x1.BroadcastsInDim S500000x256 (![0, 1] : Fin 2 → Fin S500000x256.rank)
  bcast_S_S500000x256 : S_.BroadcastsInDim S500000x256 (![] : Fin 0 → Fin S500000x256.rank)
  bcast_S_S500000 : S_.BroadcastsInDim S500000 (![] : Fin 0 → Fin S500000.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  transposes_S256x256_S256x256_1_0 : S256x256.Transposes [1, 0] S256x256
  scatter_S4096x256_S500000x1_S500000x256_1_0_0_1_wf : ScatterDims.WF S4096x256 S500000x1 S500000x256 [1] [0] [0] 1
  scatter_S4096_S500000x1_S500000_n_0_0_1_wf : ScatterDims.WF S4096 S500000x1 S500000 [] [0] [0] 1
  dot_S4096x256_S256x256_S4096x256_1_0_0_1_n_n_wf : DotDims.WF S4096x256 S256x256 S4096x256 [1] [0] [0] [1] [] []
  gather_S4096x256_S500000x1_S500000x256_1_0_n_n_0_1_1256_wf : GatherDims.WF S4096x256 S500000x1 S500000x256 [1] [0] [] [0] [] 1 ![1, 256]

variable [Facts₀]

def scatter_S4096x256_S500000x1_S500000x256_1_0_0_1 : ScatterDims S4096x256 S500000x1 S500000x256 where
  updateWindowDims := [1]
  insertedWindowDims := [0]
  scatterDimsToOperandDims := [0]
  indexVectorDim := 1
  wf := scatter_S4096x256_S500000x1_S500000x256_1_0_0_1_wf
def scatter_S4096_S500000x1_S500000_n_0_0_1 : ScatterDims S4096 S500000x1 S500000 where
  updateWindowDims := []
  insertedWindowDims := [0]
  scatterDimsToOperandDims := [0]
  indexVectorDim := 1
  wf := scatter_S4096_S500000x1_S500000_n_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S4096x256_S500000x1_S500000x256_1_0_n_n_0_1_1256 : GatherDims S4096x256 S500000x1 S500000x256 where
  offsetDims := [1]
  collapsedSliceDims := [0]
  operandBatchingDims := []
  startIndicesBatchingDims := []
  startIndexMap := [0]
  indexVectorDim := 1
  sliceSizes := ![1, 256]
  wf := gather_S4096x256_S500000x1_S500000x256_1_0_n_n_0_1_1256_wf

class Facts : Prop extends Facts₀ where

variable [Facts]
-- ==== Proof.Spec.lean ====
/-
  The two results as closed forms over the argument arrays, and the one-hot algebra both sides meet.

  A graph id is a 32-bit word. Row `b` of a one-hot matrix built by comparing a column of ids against the row
  numbers holds a one exactly where the id IS the number `b`; a product with such a matrix therefore selects: summed
  over the rows it picks the row the id names (or nothing, when the id names no row), summed over the nodes it
  adds up the nodes of one graph.
-/
import Idealize.ShloMosaic.PureOps.Ideal
import Idealize.ShloMosaic.Lib.ValueIdx

noncomputable section

open scoped BigOperators

namespace Cert.Blend

open Idealize.ShloMosaic Idealize.ShloMosaic.ValueIdx

/-- Entry `(b, d)` of the masked segment sum: the sum of `x n d` over the nodes `n` that are kept and whose id is the
    number `b`. A node whose id is no row number, or that is not kept, adds nothing. -/
def segSpec (ids : Fin 500000 → BitVec 32) (keep : Fin 500000 → Bool) (x : Fin 500000 → Fin 256 → EReal)
    (b : Fin 4096) (d : Fin 256) : EReal :=
  ∑ n : Fin 500000, if keep n = true ∧ BitVec.ofNat 32 b.val = ids n then x n d else 0

/-- Entry `(n, d)` of the gathered rows, for ids that all name a row: row `ids n` of the table. -/
def rowSpec (ids : Fin 500000 → BitVec 32) (hr : ∀ n, (ids n).toNat < 4096) (pg : Fin 4096 → Fin 256 → EReal)
    (n : Fin 500000) (d : Fin 256) : EReal :=
  pg ⟨(ids n).toNat, hr n⟩ d

/-- The weight a one-hot row gives: the compare's bit, widened and read as a number, is one or zero. -/
theorem onehot_weight (a w : BitVec 32) :
    (((((IntOp.cmpi .eq a w).setWidth 32).toInt : ℝ)) : EReal) = if a = w then 1 else 0 := by
  unfold IntOp.cmpi
  by_cases h : a = w
  · subst h; simp
  · have hb : (a == w) = false := beq_eq_false_iff_ne.mpr h
    simp [h, hb]

/-- A number below `2 ^ 32` is recovered from its word. -/
theorem ofNat_eq_iff (b : ℕ) (hb : b < 4294967296) (w : BitVec 32) : BitVec.ofNat 32 b = w ↔ w.toNat = b := by
  constructor
  · rintro rfl; simp [Nat.mod_eq_of_lt hb]
  · intro h; apply BitVec.eq_of_toNat_eq; simp [h, Nat.mod_eq_of_lt hb]

/-- Summed over the rows, a one-hot weight picks the row the id names. -/
theorem sum_onehot_rows (w : BitVec 32) (hw : w.toNat < 4096) (f : Fin 4096 → EReal) :
    ∑ b : Fin 4096, (if BitVec.ofNat 32 b.val = w then (1 : EReal) else 0) * f b = f ⟨w.toNat, hw⟩ := by
  rw [Finset.sum_eq_single (⟨w.toNat, hw⟩ : Fin 4096)]
  · rw [if_pos ((ofNat_eq_iff _ (by omega) w).2 rfl), one_mul]
  · intro b _ hne
    rw [if_neg, zero_mul]
    intro h
    exact hne (Fin.ext ((ofNat_eq_iff b.val (by have := b.isLt; omega) w).1 h).symm)
  · intro h; exact absurd (Finset.mem_univ _) h

end Cert.Blend

end
-- ==== Proof.SegValue.lean ====
/-
  The first pallas_call's value. Its one output block, the whole [4096, 256] array of segment sums, stays in place over
  all 250 grid points: point 0 clears it, every point adds to it the product of a one-hot matrix (row b has a one at the
  nodes of the tile whose id is b and that the mask keeps) with the tile's 2000 rows, and the block is written back once,
  after the last point. So after point t entry (b, d) holds the sum of x n d over the kept nodes n < 2000 (t + 1) whose id
  is b, and the array ends at that sum over all 500000 nodes.
-/
import proofs.«415109_j4879082848572_1_alg».proof.Proof.Gen.KernelIdeal.Frame
import proofs.«415109_j4879082848572_1_alg».proof.Proof.Spec
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

open scoped BigOperators

namespace Cert.KernelIdeal.SegValue

open Cert.KernelIdeal Cert.KernelIdeal.Gen Cert.Blend
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## What one point leaves in the block -/

section Pieces
variable {F : FTy → Type} [FloatOps F]

/-- A point other than the first leaves, over the block's contents `xo`, the update payload of the tile's three input
    blocks: its one store covers the block. -/
theorem out_B (c : Dev nD) (i : grid0.Coords) (a1 : Memref sig .tc .vmem S2000x1 .i32) (h1 : a1.IsWhole)
    (a2 : Memref sig .tc .vmem S2000x1 .i32) (h2 : a2.IsWhole) (a3 : Memref sig .tc .vmem S2000x256 .f32) (h3 : a3.IsWhole)
    (a4 : Memref sig .tc .vmem S4096x256 .f32) (h4 : a4.IsWhole) (hc : ¬cond0_0 i)
    (x0 x1 : Vec F S2000x1 .i32) (x2 : Vec F S2000x256 .f32) (xo : Vec F S4096x256 .f32) :
    out0_B_3 c i a1 h1 a2 h2 a3 h3 a4 h4 hc x0 x1 x2 xo = k0_pay2 x0 x1 x2 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz]
  simp only [View.readAt_eq_ld, h1.read_unread, h2.read_unread, h3.read_unread, h4.read_unread,
    View.ld_unit_zero (S := S2000x1) hz, View.ld_unit_zero (S := S2000x256) hz, View.ld_unit_zero (S := S4096x256) hz]

/-- The first point stores the zero block, reads it back, and leaves the update payload over it. -/
theorem out_A (c : Dev nD) (i : grid0.Coords) (a1 : Memref sig .tc .vmem S2000x1 .i32) (h1 : a1.IsWhole)
    (a2 : Memref sig .tc .vmem S2000x1 .i32) (h2 : a2.IsWhole) (a3 : Memref sig .tc .vmem S2000x256 .f32) (h3 : a3.IsWhole)
    (a4 : Memref sig .tc .vmem S4096x256 .f32) (h4 : a4.IsWhole) (hc : cond0_0 i)
    (x0 x1 : Vec F S2000x1 .i32) (x2 : Vec F S2000x256 .f32) :
    out0_A_3 c i a1 h1 a2 h2 a3 h3 a4 h4 hc x0 x1 x2 = k0_pay2 x0 x1 x2 (k0_pay1 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S4096x256) hz, View.readCov_unit_zero (S := S4096x256) _ hz]
  simp only [View.readAt_eq_ld, h1.read_unread, h2.read_unread, h3.read_unread,
    View.ld_unit_zero (S := S2000x1) hz, View.ld_unit_zero (S := S2000x256) hz, View.ld_unit_zero (S := S4096x256) hz]

end Pieces

/-! ## The update payload at an entry -/

section Payload

/-- A column of `n` words viewed as a vector reads, at `r`, the column at `(r, 0)`. -/
theorem col_apply {α : Type} {n : ℕ} (x : (⟨2, ![n, 1]⟩ : Shape).Idx → α)
    (h : (⟨2, ![n, 1]⟩ : Shape).ShapeCasts ⟨1, ![n]⟩) (r : Fin n) :
    shapeCast ⟨1, ![n]⟩ x h (ix1 r) = x (ix2 r (0 : Fin 1)) :=
  shapeCast_apply x h _ _ (by
    rw [Shape.rowMajor_val_two, Shape.rowMajor_val_one]
    show r.val * 1 + 0 = r.val
    omega)

/-- The id a node is routed by: its own when its mask word is not zero, else the word of all ones, which is no row
    number, so that a node the mask drops meets no row. -/
def routed (id mask : BitVec 32) : BitVec 32 := Scalar.select (IntOp.cmpi .ne mask 0#32) id 4294967295#32

/-- Entry `(b, r)` of the one-hot matrix: one when node `r` of the tile is routed to row `b`, else zero. -/
theorem weight_apply (x0 x1 : IVec S2000x1 32) (b : Fin 4096) (r : Fin 2000) :
    (truncf .bf16 (sitofp .f32 (extui 32 (cmpi .eq (iota .tc S4096x2000 32 [0] iota_S4096x2000_d0_w32)
        (broadcastTo S4096x2000 (shapeCast S1x2000
          (select (cmpi .ne (shapeCast S2000 (shapeCast S2000x1 x1 shapeCasts_S2000x1_S2000x1) shapeCasts_S2000x1_S2000) (broadcast S2000 0#32))
            (shapeCast S2000 (shapeCast S2000x1 x0 shapeCasts_S2000x1_S2000x1) shapeCasts_S2000x1_S2000)
            (broadcast S2000 4294967295#32)) shapeCasts_S2000_S1x2000) broadcasts_S1x2000_S4096x2000)) natLt_1_32))
        bitsLt_bf16_f32 : FVec Ideal S4096x2000 .bf16) (ix2 b r)
      = if BitVec.ofNat 32 b.val = routed (x0 (ix2 r (0 : Fin 1))) (x1 (ix2 r (0 : Fin 1))) then (1 : EReal) else 0 := by
  rw [shapeCast_self, shapeCast_self]
  show ((((IntOp.cmpi .eq (iota .tc S4096x2000 32 [0] iota_S4096x2000_d0_w32 (ix2 b r))
      (broadcastTo S4096x2000 _ broadcasts_S1x2000_S4096x2000 (ix2 b r))).setWidth 32).toInt : ℝ) : EReal) = _
  rw [iota_single_apply, broadcastTo_1b_ab_apply, shapeCast_a_1a_apply, onehot_weight]
  show (if BitVec.ofNat 32 b.val = Scalar.select (IntOp.cmpi .ne (shapeCast S2000 x1 shapeCasts_S2000x1_S2000 (ix1 r)) 0#32)
      (shapeCast S2000 x0 shapeCasts_S2000x1_S2000 (ix1 r)) 4294967295#32 then (1 : EReal) else 0) = _
  rw [col_apply, col_apply]
  rfl

end Payload

section Payload2

theorem lhs_axis0 (i : S4096x256.Idx) (q : dot_S4096x2000_S2000x256_S4096x256_1_0_0_1_n_n.contr.Idx) :
    (dot_S4096x2000_S2000x256_S4096x256_1_0_0_1_n_n.lhsIdx i q 0).val = (i 0).val := by
  unfold DotDims.lhsIdx
  rw [dif_neg (show ¬(0 : Fin S4096x2000.rank) ∈ dot_S4096x2000_S2000x256_S4096x256_1_0_0_1_n_n.lhsBatch by decide), dif_pos (show (0 : Fin S4096x2000.rank) ∈ dot_S4096x2000_S2000x256_S4096x256_1_0_0_1_n_n.lhsNonContracting by decide)]
  rfl
theorem lhs_axis1 (i : S4096x256.Idx) (q : dot_S4096x2000_S2000x256_S4096x256_1_0_0_1_n_n.contr.Idx) :
    (dot_S4096x2000_S2000x256_S4096x256_1_0_0_1_n_n.lhsIdx i q 1).val = (q ⟨0, by decide⟩).val :=
  dot_S4096x2000_S2000x256_S4096x256_1_0_0_1_n_n.lhsIdx_val_of_single rfl i q
theorem rhs_axis0 (i : S4096x256.Idx) (q : dot_S4096x2000_S2000x256_S4096x256_1_0_0_1_n_n.contr.Idx) :
    (dot_S4096x2000_S2000x256_S4096x256_1_0_0_1_n_n.rhsIdx i q 0).val = (q ⟨0, by decide⟩).val :=
  dot_S4096x2000_S2000x256_S4096x256_1_0_0_1_n_n.rhsIdx_val_of_single rfl i q
theorem rhs_axis1 (i : S4096x256.Idx) (q : dot_S4096x2000_S2000x256_S4096x256_1_0_0_1_n_n.contr.Idx) :
    (dot_S4096x2000_S2000x256_S4096x256_1_0_0_1_n_n.rhsIdx i q 1).val = (i 1).val := by
  unfold DotDims.rhsIdx
  rw [dif_neg (show ¬(1 : Fin S2000x256.rank) ∈ dot_S4096x2000_S2000x256_S4096x256_1_0_0_1_n_n.rhsBatch by decide), dif_pos (show (1 : Fin S2000x256.rank) ∈ dot_S4096x2000_S2000x256_S4096x256_1_0_0_1_n_n.rhsNonContracting by decide)]
  rfl

/-- The product of a [4096, 2000] matrix with a [2000, 256] one into the zero block, at an entry: the sum over the
    tile's rows. -/
theorem tile_matmul_apply (l : FVec Ideal S4096x2000 .bf16) (x : FVec Ideal S2000x256 .bf16) (b : Fin 4096) (d : Fin 256) :
    (matmul dot_S4096x2000_S2000x256_S4096x256_1_0_0_1_n_n none l x (constant S4096x256 .f32 0x00000000#32) : FVec Ideal S4096x256 .f32) (ix2 b d)
      = ∑ r : Fin 2000, l (ix2 b r) * x (ix2 r d) := by
  simp only [matmul]
  rw [Ideal.matmul_constant_zero_apply, ← Equiv.sum_comp (contrEquiv1 dot_S4096x2000_S2000x256_S4096x256_1_0_0_1_n_n 2000 rfl rfl).symm]
  refine Finset.sum_congr rfl fun r _ => ?_
  have hk := contrEquiv1_symm_val dot_S4096x2000_S2000x256_S4096x256_1_0_0_1_n_n 2000 rfl rfl r
  have el : dot_S4096x2000_S2000x256_S4096x256_1_0_0_1_n_n.lhsIdx (ix2 b d) ((contrEquiv1 dot_S4096x2000_S2000x256_S4096x256_1_0_0_1_n_n 2000 rfl rfl).symm r) = ix2 b r := funext fun a => Fin.ext (by
    match a with
    | ⟨0, _⟩ => exact lhs_axis0 _ _
    | ⟨1, _⟩ => exact (lhs_axis1 _ _).trans hk)
  have er : dot_S4096x2000_S2000x256_S4096x256_1_0_0_1_n_n.rhsIdx (ix2 b d) ((contrEquiv1 dot_S4096x2000_S2000x256_S4096x256_1_0_0_1_n_n 2000 rfl rfl).symm r) = ix2 r d := funext fun a => Fin.ext (by
    match a with
    | ⟨0, _⟩ => exact (rhs_axis0 _ _).trans hk
    | ⟨1, _⟩ => exact rhs_axis1 _ _)
  rw [el, er]

/-- The update payload at entry `(b, d)`: the entry it finds plus, over the tile's nodes routed to row `b`, their
    entries at `d`. -/
theorem pay2_apply (x0 x1 : Vec Ideal S2000x1 .i32) (x2 : Vec Ideal S2000x256 .f32) (xo : Vec Ideal S4096x256 .f32)
    (b : Fin 4096) (d : Fin 256) :
    k0_pay2 x0 x1 x2 xo (ix2 b d)
      = xo (ix2 b d) + ∑ r : Fin 2000,
          (if BitVec.ofNat 32 b.val = routed (x0 (ix2 r (0 : Fin 1))) (x1 (ix2 r (0 : Fin 1))) then (1 : EReal) else 0)
            * x2 (ix2 r d) := by
  unfold k0_pay2
  dsimp only
  rw [addf_apply, shapeCast_self, tile_matmul_apply]
  refine congrArg (xo (ix2 b d) + ·) (Finset.sum_congr rfl fun r _ => ?_)
  rw [weight_apply]
  rfl

/-- The zero block at an entry. -/
theorem pay1_apply (i : S4096x256.Idx) : k0_pay1 (F := Ideal) i = 0 := by
  unfold k0_pay1
  show Ideal.ofBits .f32 0x00000000#32 = 0
  exact Ideal.ofBits_zero_f32

end Payload2

/-! ## The blocks a point reads, and the running sum -/

section Run

variable (V : (c : Dev nD) → (b : Ref sig .tc) → Buf (Elt Ideal) ((c : Thread nD τ).loc b))

/-- The three input arrays as the region finds them, and the blocks point `t` reads, at their literal types. -/
abbrev idsArr (c : Dev nD) : Vec Ideal S500000x1 .i32 := V c main_v3
abbrev maskArr (c : Dev nD) : Vec Ideal S500000x1 .i32 := V c main_v4
abbrev rowsArr (c : Dev nD) : Vec Ideal S500000x256 .f32 := V c main_arg1
abbrev idsBlk (c : Dev nD) (t : Fin cfg0.N) : Vec Ideal S2000x1 .i32 := iblk0 V c 0 t
abbrev maskBlk (c : Dev nD) (t : Fin cfg0.N) : Vec Ideal S2000x1 .i32 := iblk0 V c 1 t
abbrev rowsBlk (c : Dev nD) (t : Fin cfg0.N) : Vec Ideal S2000x256 .f32 := iblk0 V c 2 t

/-- Every input window's block index at point `t` is `(t, 0)`. -/
theorem idx_facts : ∀ t : Fin cfg0.N, win0_0.index t 0 = t.val ∧ win0_0.index t 1 = 0 ∧ win0_1.index t 0 = t.val
    ∧ win0_1.index t 1 = 0 ∧ win0_2.index t 0 = t.val ∧ win0_2.index t 1 = 0 :=
  (by decide +kernel : ∀ t : Fin grid0.N, win0_0.index t 0 = t.val ∧ win0_0.index t 1 = 0 ∧ win0_1.index t 0 = t.val
    ∧ win0_1.index t 1 = 0 ∧ win0_2.index t 0 = t.val ∧ win0_2.index t 1 = 0)

theorem node_lt (t : Fin cfg0.N) (r : Fin 2000) : 2000 * t.val + r.val < 500000 := by
  have h1 := t.isLt
  have h2 : cfg0.N = 250 := N_0
  have h3 := r.isLt
  omega

/-- Node `r` of tile `t` is node `2000 t + r` of the arrays. -/
def node (t : Fin cfg0.N) (r : Fin 2000) : Fin 500000 := ⟨2000 * t.val + r.val, node_lt t r⟩

theorem ids_block (c : Dev nD) (t : Fin cfg0.N) (r : Fin 2000) :
    idsBlk V c t (ix2 r (0 : Fin 1)) = idsArr V c (ix2 (node t r) (0 : Fin 1)) := by
  unfold idsBlk iblk0
  rw [View.read_apply]
  show V c main_v3 _ = V c main_v3 _
  refine congrArg (V c main_v3) (funext fun a => Fin.ext ?_)
  match a with
  | ⟨0, _⟩ =>
    show win0_0.index t 0 * 2000 + 1 * r.val = 2000 * t.val + r.val
    rw [(idx_facts t).1]; omega
  | ⟨1, _⟩ =>
    show win0_0.index t 1 * 1 + 1 * 0 = 0
    rw [(idx_facts t).2.1]

theorem mask_block (c : Dev nD) (t : Fin cfg0.N) (r : Fin 2000) :
    maskBlk V c t (ix2 r (0 : Fin 1)) = maskArr V c (ix2 (node t r) (0 : Fin 1)) := by
  unfold maskBlk iblk0
  rw [View.read_apply]
  show V c main_v4 _ = V c main_v4 _
  refine congrArg (V c main_v4) (funext fun a => Fin.ext ?_)
  match a with
  | ⟨0, _⟩ =>
    show win0_1.index t 0 * 2000 + 1 * r.val = 2000 * t.val + r.val
    rw [(idx_facts t).2.2.1]; omega
  | ⟨1, _⟩ =>
    show win0_1.index t 1 * 1 + 1 * 0 = 0
    rw [(idx_facts t).2.2.2.1]

theorem rows_block (c : Dev nD) (t : Fin cfg0.N) (r : Fin 2000) (d : Fin 256) :
    rowsBlk V c t (ix2 r d) = rowsArr V c (ix2 (node t r) d) := by
  unfold rowsBlk iblk0
  rw [View.read_apply]
  show V c main_arg1 _ = V c main_arg1 _
  refine congrArg (V c main_arg1) (funext fun a => Fin.ext ?_)
  match a with
  | ⟨0, _⟩ =>
    show win0_2.index t 0 * 2000 + 1 * r.val = 2000 * t.val + r.val
    rw [(idx_facts t).2.2.2.2.1]; omega
  | ⟨1, _⟩ =>
    show win0_2.index t 1 * 256 + 1 * d.val = d.val
    rw [(idx_facts t).2.2.2.2.2]; omega

/-- What node `k` adds to entry `(b, d)`: its entry at `d` when its mask word is not zero and its id is the number
    `b`, else nothing (and nothing past the last node). -/
def term (c : Dev nD) (b : Fin 4096) (d : Fin 256) (k : ℕ) : EReal :=
  if h : k < 500000 then
    (if (maskArr V c (ix2 ⟨k, h⟩ (0 : Fin 1)) != 0#32) = true ∧ BitVec.ofNat 32 b.val = idsArr V c (ix2 ⟨k, h⟩ (0 : Fin 1))
      then rowsArr V c (ix2 ⟨k, h⟩ d) else 0)
  else 0

/-- A one-hot weight against the routed id is the mask's test and the id's test together: the all-ones word is no row
    number. -/
theorem routed_weight (b : Fin 4096) (id mask : BitVec 32) (x : EReal) :
    (if BitVec.ofNat 32 b.val = routed id mask then (1 : EReal) else 0) * x
      = if (mask != 0#32) = true ∧ BitVec.ofNat 32 b.val = id then x else 0 := by
  have hb := b.isLt
  unfold routed IntOp.cmpi
  by_cases hm : mask = 0#32
  · subst hm
    have hne : ¬BitVec.ofNat 32 b.val = 4294967295#32 := by
      intro h
      have := congrArg BitVec.toNat h
      simp [Nat.mod_eq_of_lt (show b.val < 4294967296 by omega)] at this
      omega
    simp [Scalar.select, hne]
  · have hm' : (mask != 0#32) = true := by simpa using hm
    simp only [hm', Scalar.select, BitVec.ofBool_true, if_true, true_and]
    split <;> simp

/-- One tile's product at entry `(b, d)`: the contributions of its 2000 nodes. -/
theorem tile_sum (c : Dev nD) (t : Fin cfg0.N) (b : Fin 4096) (d : Fin 256) :
    ∑ r : Fin 2000, (if BitVec.ofNat 32 b.val = routed (idsBlk V c t (ix2 r (0 : Fin 1))) (maskBlk V c t (ix2 r (0 : Fin 1)))
        then (1 : EReal) else 0) * rowsBlk V c t (ix2 r d)
      = ∑ r ∈ Finset.range 2000, term V c b d (2000 * t.val + r) := by
  rw [← Fin.sum_univ_eq_sum_range (fun r => term V c b d (2000 * t.val + r)) 2000]
  refine Finset.sum_congr rfl fun r _ => ?_
  rw [ids_block, mask_block, rows_block, routed_weight]
  unfold term
  rw [dif_pos (node_lt t r)]
  rfl

end Run

section Final

variable (V : (c : Dev nD) → (b : Ref sig .tc) → Buf (Elt Ideal) ((c : Thread nD τ).loc b))

/-- After point `n` entry `(b, d)` of the block holds the contributions of the nodes of the first `n + 1` tiles: by
    induction on the point, the first clearing the block, each later one adding its tile to what it finds. -/
theorem outsAt_apply (c : Dev nD) (b : Fin 4096) (d : Fin 256) : ∀ (n : ℕ) (h : n < cfg0.N),
    (outsAt0 V c n h : Vec Ideal S4096x256 .f32) (ix2 b d) = ∑ k ∈ Finset.range (2000 * (n + 1)), term V c b d k
  | 0, h => by
    have e : outsAt0 V c 0 h = k0_pay2 (idsBlk V c ⟨0, h⟩) (maskBlk V c ⟨0, h⟩) (rowsBlk V c ⟨0, h⟩) (k0_pay1 (F := Ideal)) :=
      (outsAt0_A V c ⟨0, h⟩ rfl).trans (out_A c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) (ms0_3 ⟨0, h⟩) (hs0_3 ⟨0, h⟩) _ (iblk0 V c 0 ⟨0, h⟩) (iblk0 V c 1 ⟨0, h⟩) (iblk0 V c 2 ⟨0, h⟩))
    rw [e, pay2_apply, pay1_apply, zero_add, tile_sum]
    simp only [Nat.mul_zero, Nat.zero_add, Nat.mul_one]
  | n + 1, h => by
    have hN : cfg0.N = 250 := N_0
    have hB : ¬(⟨n + 1, h⟩ : Fin cfg0.N).val % 250 = 0 := by dsimp only; omega
    have e : outsAt0 V c (n + 1) h = k0_pay2 (idsBlk V c ⟨n + 1, h⟩) (maskBlk V c ⟨n + 1, h⟩) (rowsBlk V c ⟨n + 1, h⟩)
        (outsAt0 V c n (Nat.lt_of_succ_lt h)) :=
      (outsAt0_B V c ⟨n + 1, h⟩ hB).trans (out_B c (grid0.coords ⟨n + 1, h⟩) (ms0_0 ⟨n + 1, h⟩) (hs0_0 ⟨n + 1, h⟩)
        (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) _
        (iblk0 V c 0 ⟨n + 1, h⟩) (iblk0 V c 1 ⟨n + 1, h⟩) (iblk0 V c 2 ⟨n + 1, h⟩) (outsAt0 V c n (Nat.lt_of_succ_lt h)))
    rw [e, pay2_apply, outsAt_apply c b d n, tile_sum]
    rw [show 2000 * (n + 1 + 1) = 2000 * (n + 1) + 2000 by omega, Finset.sum_range_add]

/-- The array of segment sums: entry `(b, d)` sums the kept nodes whose id is `b`. -/
def result (c : Dev nD) : Vec Ideal S4096x256 .f32 := fun i =>
  segSpec (fun n => V c main_v3 (ix2 n (0 : Fin 1))) (fun n => V c main_v4 (ix2 n (0 : Fin 1)) != 0#32)
    (fun n d => V c main_arg1 (ix2 n d)) (i 0) (i 1)

theorem last_lt : 249 < cfg0.N := by rw [show cfg0.N = 250 from N_0]; omega

/-- After the last point the block holds the whole sum. -/
theorem outs_last (c : Dev nD) : outsAt0 V c 249 last_lt = result V c := by
  funext i
  obtain ⟨b, d, rfl⟩ : ∃ (b : Fin 4096) (d : Fin 256), i = ix2 b d := ⟨i 0, i 1, eq_ix2 i⟩
  rw [outsAt_apply]
  show ∑ k ∈ Finset.range 500000, term V c b d k = segSpec _ _ _ b d
  unfold segSpec
  rw [← Fin.sum_univ_eq_sum_range (term V c b d) 500000]
  refine Finset.sum_congr rfl fun n _ => ?_
  unfold term
  rw [dif_pos n.isLt]

/-- The output window's block index is `(0, 0)` at every point. -/
theorem out_idx : ∀ t : Fin cfg0.N, win0_3.index t 0 = 0 ∧ win0_3.index t 1 = 0 :=
  (by decide +kernel : ∀ t : Fin grid0.N, win0_3.index t 0 = 0 ∧ win0_3.index t 1 = 0)

/-- The one write-back, after the last point, writes the whole sum: the block is the array. -/
theorem flushed_eq (c : Dev nD) (t : Fin cfg0.N) (hf : (cfg0.win 3).flush t = true) :
    (dat0 V c).flushed 3 t = ((cfg0.win 3).blk t).view.read (Elt Ideal) (result V c) := by
  have hN : cfg0.N = 250 := N_0
  have h249 : t.val = 249 := by have := (flush0_3 t).mp hf; have := t.isLt; omega
  obtain rfl : t = ⟨249, last_lt⟩ := Fin.ext h249
  show (cfg0.win 3).cut (grid0.coords ⟨249, last_lt⟩) ((dat0 V c).after 3 ⟨249, last_lt⟩) = _
  rw [after0_3]
  show (cfg0.win 3).cut (grid0.coords ⟨249, last_lt⟩) (outsAt0 V c 249 last_lt) = _
  rw [outs_last]
  have hz' : (fun a => win0_3.index ⟨249, last_lt⟩ a * main_v5.ty.shape.size a) = fun _ => 0 := funext fun a => by
    match a with
    | ⟨0, _⟩ => show win0_3.index ⟨249, last_lt⟩ 0 * 4096 = 0; rw [(out_idx _).1]
    | ⟨1, _⟩ => show win0_3.index ⟨249, last_lt⟩ 1 * 256 = 0; rw [(out_idx _).2]
  exact (Memref.read_access_unit_zero (Elt Ideal) main_v5 hz' (fun a => by rw [congrFun hz' a]; simp) (result V c)).symm

/-- So the region's output array ends at the segment sums. -/
theorem seg_final (c : Dev nD) :
    ((dat0 (F := Ideal) V c).arrAt 3 cfg0.N : S4096x256.Idx → EReal)
      = fun i => segSpec (fun n => V c main_v3 (ix2 n (0 : Fin 1))) (fun n => V c main_v4 (ix2 n (0 : Fin 1)) != 0#32)
          (fun n d => V c main_arg1 (ix2 n d)) (i 0) (i 1) :=
  (dat0 V c).arrAt_eq_of_cover 3 (result V c) (flushed_eq V c) fun i =>
    ⟨⟨249, last_lt⟩, (flush0_3 _).mpr rfl, by
      show i ∈ ((View.whole main_v5).slice (win0_3.rect ⟨249, last_lt⟩)).set
      rw [View.set_slice_whole, Rect.mem_set_unit]
      intro a
      have h0 : (i 0 : Nat) < 4096 := (i 0).isLt
      have h1 : (i 1 : Nat) < 256 := (i 1).isLt
      match a with
      | ⟨0, _⟩ =>
        show win0_3.index ⟨249, last_lt⟩ 0 * win0_3.size 0 ≤ (i 0 : Nat)
          ∧ (i 0 : Nat) < win0_3.index ⟨249, last_lt⟩ 0 * win0_3.size 0 + win0_3.xsize (grid0.coords ⟨249, last_lt⟩) 0
        rw [(out_idx _).1, show win0_3.xsize (grid0.coords ⟨249, last_lt⟩) 0 = 4096 from by decide +kernel]; omega
      | ⟨1, _⟩ =>
        show win0_3.index ⟨249, last_lt⟩ 1 * win0_3.size 1 ≤ (i 1 : Nat)
          ∧ (i 1 : Nat) < win0_3.index ⟨249, last_lt⟩ 1 * win0_3.size 1 + win0_3.xsize (grid0.coords ⟨249, last_lt⟩) 1
        rw [(out_idx _).2, show win0_3.xsize (grid0.coords ⟨249, last_lt⟩) 1 = 256 from by decide +kernel]; omega⟩

end Final

end Cert.KernelIdeal.SegValue

end
-- ==== Proof.GatherValue.lean ====
/-
  The value the gather leaves in its output array.

  The second call gathers rows of a 4096 × 256 table: for each of the 500000 nodes it builds the row of zeros and ones
  that holds a one in the column whose number is the node's graph id, and multiplies that 2000-row one-hot block with
  the whole table into a zero accumulator, 250 blocks of 2000 nodes. Read at the ideal values the product at `(r, d)`
  is a sum over the table's rows of a weight — one where the row's number is the id, zero elsewhere — times the table's
  entry; when the id names a row, the sum is that row's entry. Each grid point writes back its 2000 rows of the one
  function "row `id n` of the table at node `n`", and the 250 blocks tile the output, so the array ends holding it.
-/
import proofs.«415109_j4879082848572_1_alg».proof.Proof.Gen.KernelIdeal.Frame
import proofs.«415109_j4879082848572_1_alg».proof.Proof.Spec
import Idealize.ShloMosaic.Lib.Pipeline.Value
import Idealize.ShloMosaic.PureOps.Ideal.Laws

set_option maxRecDepth 16384
noncomputable section
namespace Cert.KernelIdeal.GatherValue
open Cert.KernelIdeal Cert.KernelIdeal.Gen Idealize.ShloMosaic Idealize.ShloMosaic.TcCoe Idealize.SL.Sem Idealize.ShloMosaic.ValueIdx Cert.Blend
open Idealize.ShloMosaic.Pipeline (Dat)

variable (V : (c : Dev nD) → (b : Ref sig .tc) → Buf (Elt Ideal) ((c : Thread nD τ).loc b))

/-! ## The one-hot product at an index

The body multiplies a 2000 × 4096 matrix of zeros and ones — row `r` holds a one in the column whose number is
the id of node `r` — with the 4096 × 256 table, into a zero accumulator. Read at `(r, d)` that is a sum over the
table's rows of a weight times the table's entry. -/

/-- The product's left operand index at output `i` and contraction index `q`: row `i 0` … -/
theorem lhs_row (i : S2000x256.Idx) (q : dot_S2000x4096_S4096x256_S2000x256_1_0_0_1_n_n.contr.Idx) :
    (dot_S2000x4096_S4096x256_S2000x256_1_0_0_1_n_n.lhsIdx i q 0).val = (i 0).val := by
  unfold DotDims.lhsIdx
  rw [dif_neg (show ¬(0 : Fin S2000x4096.rank) ∈ dot_S2000x4096_S4096x256_S2000x256_1_0_0_1_n_n.lhsBatch by decide), dif_pos (show (0 : Fin S2000x4096.rank) ∈ dot_S2000x4096_S4096x256_S2000x256_1_0_0_1_n_n.lhsNonContracting by decide)]
  rfl
/-- … column `q`; -/
theorem lhs_col (i : S2000x256.Idx) (q : dot_S2000x4096_S4096x256_S2000x256_1_0_0_1_n_n.contr.Idx) :
    (dot_S2000x4096_S4096x256_S2000x256_1_0_0_1_n_n.lhsIdx i q 1).val = (q ⟨0, by decide⟩).val :=
  dot_S2000x4096_S4096x256_S2000x256_1_0_0_1_n_n.lhsIdx_val_of_single rfl i q
/-- the right operand's: row `q` … -/
theorem rhs_row (i : S2000x256.Idx) (q : dot_S2000x4096_S4096x256_S2000x256_1_0_0_1_n_n.contr.Idx) :
    (dot_S2000x4096_S4096x256_S2000x256_1_0_0_1_n_n.rhsIdx i q 0).val = (q ⟨0, by decide⟩).val :=
  dot_S2000x4096_S4096x256_S2000x256_1_0_0_1_n_n.rhsIdx_val_of_single rfl i q
/-- … column `i 1`. -/
theorem rhs_col (i : S2000x256.Idx) (q : dot_S2000x4096_S4096x256_S2000x256_1_0_0_1_n_n.contr.Idx) :
    (dot_S2000x4096_S4096x256_S2000x256_1_0_0_1_n_n.rhsIdx i q 1).val = (i 1).val := by
  unfold DotDims.rhsIdx
  rw [dif_neg (show ¬(1 : Fin S4096x256.rank) ∈ dot_S2000x4096_S4096x256_S2000x256_1_0_0_1_n_n.rhsBatch by decide), dif_pos (show (1 : Fin S4096x256.rank) ∈ dot_S2000x4096_S4096x256_S2000x256_1_0_0_1_n_n.rhsNonContracting by decide)]
  rfl

/-- A product into the zero accumulator, read at `(r, d)`: the sum over the 4096 rows `b` of the left operand at
    `(r, b)` times the right operand at `(b, d)`. -/
theorem product_apply (A : FVec Ideal S2000x4096 .bf16) (T : FVec Ideal S4096x256 .bf16) (r : Fin 2000) (d : Fin 256) :
    matmul dot_S2000x4096_S4096x256_S2000x256_1_0_0_1_n_n none A T (constant S2000x256 .f32 0x00000000#32) (ix2 r d)
      = ∑ b : Fin 4096, A (ix2 r b) * T (ix2 b d) := by
  simp only [matmul]
  rw [Ideal.matmul_constant_zero_apply, ← Equiv.sum_comp (ValueIdx.contrEquiv1 dot_S2000x4096_S4096x256_S2000x256_1_0_0_1_n_n 4096 rfl rfl).symm]
  refine Finset.sum_congr rfl fun k _ => ?_
  have hk := ValueIdx.contrEquiv1_symm_val dot_S2000x4096_S4096x256_S2000x256_1_0_0_1_n_n 4096 rfl rfl k
  have el : dot_S2000x4096_S4096x256_S2000x256_1_0_0_1_n_n.lhsIdx (ix2 r d) ((ValueIdx.contrEquiv1 dot_S2000x4096_S4096x256_S2000x256_1_0_0_1_n_n 4096 rfl rfl).symm k) = ix2 r k := funext fun a => Fin.ext (by
    match a with
    | ⟨0, _⟩ => exact lhs_row _ _
    | ⟨1, _⟩ => exact (lhs_col _ _).trans hk)
  have er : dot_S2000x4096_S4096x256_S2000x256_1_0_0_1_n_n.rhsIdx (ix2 r d) ((ValueIdx.contrEquiv1 dot_S2000x4096_S4096x256_S2000x256_1_0_0_1_n_n 4096 rfl rfl).symm k) = ix2 k d := funext fun a => Fin.ext (by
    match a with
    | ⟨0, _⟩ => exact (rhs_row _ _).trans hk
    | ⟨1, _⟩ => exact rhs_col _ _)
  rw [el, er]

/-- The id column cast to a vector and back to a column is the column; broadcast along the 4096 columns it reads, at
    `(r, b)`, the id of node `r`. -/
theorem ids_spread (x0 : Vec Ideal S2000x1 .i32) (r : Fin 2000) (b : Fin 4096) :
    broadcastTo S2000x4096 (shapeCast S2000x1 (shapeCast S2000 x0 shapeCasts_S2000x1_S2000) shapeCasts_S2000_S2000x1)
        broadcasts_S2000x1_S2000x4096 (ix2 r b) = x0 (ix2 r (0 : Fin 1)) := by
  rw [shapeCast_shapeCast]
  exact broadcastTo_apply x0 broadcasts_S2000x1_S2000x4096 (ix2 r b) (ix2 r (0 : Fin 1)) (fun a => match a with
    | ⟨0, _⟩ => by show r.val = if (2000 : Nat) = 1 then 0 else r.val; rw [if_neg (by decide)]
    | ⟨1, _⟩ => by show 0 = if (1 : Nat) = 1 then 0 else b.val; rw [if_pos rfl])

/-- The body's payload at `(r, d)`: the sum over the table's rows `b` of the one-hot weight — one exactly when the
    number `b` is the id of node `r` — times the table's entry `(b, d)`. -/
theorem payload_apply (x0 : Vec Ideal S2000x1 .i32) (x1 : Vec Ideal S4096x256 .bf16) (r : Fin 2000) (d : Fin 256) :
    k1_pay1 x0 x1 (ix2 r d)
      = ∑ b : Fin 4096, (if BitVec.ofNat 32 b.val = x0 (ix2 r (0 : Fin 1)) then (1 : EReal) else 0) * x1 (ix2 b d) := by
  unfold k1_pay1
  rw [product_apply]
  refine Finset.sum_congr rfl fun b _ => ?_
  simp only [shapeCast_self]
  rw [truncf_apply, sitofp_apply, extui_apply]
  show FloatOps.sitofp (F := Ideal) .f32 ((IntOp.cmpi .eq (iota .tc S2000x4096 32 [1] iota_S2000x4096_d1_w32 (ix2 r b)) (broadcastTo S2000x4096 _ broadcasts_S2000x1_S2000x4096 (ix2 r b))).setWidth 32) * _ = _
  rw [iota_single_apply, ids_spread]
  exact congrArg (· * x1 (ix2 b d)) (onehot_weight (BitVec.ofNat 32 b.val) (x0 (ix2 r (0 : Fin 1))))

/-- When the id of node `r` names a row of the table, the payload at `(r, d)` is that row's entry. -/
theorem payload_row (x0 : Vec Ideal S2000x1 .i32) (x1 : Vec Ideal S4096x256 .bf16) (r : Fin 2000) (d : Fin 256)
    (h : (x0 (ix2 r (0 : Fin 1))).toNat < 4096) :
    k1_pay1 x0 x1 (ix2 r d) = x1 (ix2 (⟨(x0 (ix2 r (0 : Fin 1))).toNat, h⟩ : Fin 4096) d) := by
  rw [payload_apply]
  exact sum_onehot_rows (x0 (ix2 r (0 : Fin 1))) h (fun b => x1 (ix2 b d))

/-! ## From the blocks to the array

Point `t` of the grid reads rows `2000 t … 2000 t + 1999` of the id column and the whole table, and writes the same
rows of the output. So what it writes back is its block of ONE function of the two arrays — at node `n`, the table's
row named by the id of `n` — and the 250 blocks tile the 500000 rows. -/

theorem zero_offsets : (![0, 0] : Fin 2 → Nat) = fun _ => 0 := funext fun a => by fin_cases a <;> rfl

/-- One point, over any loaded blocks: if row `r` of the id block is the id of node `n` and column `d` of the table
    block is column `d'` of the table, the payload at `(r, d)` is the gathered entry `(n, d')`. -/
theorem point_row (x0 : Vec Ideal S2000x1 .i32) (x1 : Vec Ideal S4096x256 .bf16)
    (ids : Fin 500000 → BitVec 32) (hr : ∀ n, (ids n).toNat < 4096) (pg : Fin 4096 → Fin 256 → EReal)
    (n : Fin 500000) (r : Fin 2000) (d d' : Fin 256)
    (h0 : x0 (ix2 r (0 : Fin 1)) = ids n) (h1 : ∀ b : Fin 4096, x1 (ix2 b d) = pg b d') :
    k1_pay1 x0 x1 (ix2 r d) = rowSpec ids hr pg n d' := by
  have h : (x0 (ix2 r (0 : Fin 1))).toNat < 4096 := by rw [h0]; exact hr n
  rw [payload_row x0 x1 r d h, h1]
  unfold rowSpec
  exact congrArg (fun k => pg k d') (Fin.ext (congrArg BitVec.toNat h0))

/-- The printed index maps over the grid: the id column's block and the output's block sit at block row `t`, block
    column 0; the table's one block at (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is its block of the gathered rows. -/
theorem flushed_rows (c : Dev nD) (hr : ∀ n : Fin 500000, (V c main_v36 (ix2 n (0 : Fin 1))).toNat < 4096) (t : Fin cfg1.N) :
    (dat1 (F := Ideal) V c).flushed 2 t = ((cfg1.win 2).blk t).view.read (Elt Ideal)
      (fun i => rowSpec (fun n => V c main_v36 (ix2 n (0 : Fin 1))) hr (fun b d => V c main_v35 (ix2 b d)) (i 0) (i 1)) := by
  show (cfg1.win 2).cut (grid1.coords t) ((dat1 V c).after 2 t) = _
  rw [after1_2]
  unfold out1_2
  rw [View.canon_unit_zero zero_offsets]
  simp only [View.ld_unit_zero (S := S2000x1) zero_offsets, View.ld_unit_zero (S := S4096x256) zero_offsets]
  obtain ⟨e00, e01, e10, e11, e20, e21⟩ := index_facts t
  funext j
  obtain ⟨r, d, rfl⟩ : ∃ (r : Fin 2000) (d : Fin 256), j = ix2 r d := ⟨j 0, j 1, eq_ix2 j⟩
  show k1_pay1 (iblk1 V c 0 t) (iblk1 V c 1 t) (ix2 r d)
      = rowSpec (fun n => V c main_v36 (ix2 n (0 : Fin 1))) hr (fun b d => V c main_v35 (ix2 b d))
          ((((cfg1.win 2).blk t).view.emb (ix2 r d)) 0) ((((cfg1.win 2).blk t).view.emb (ix2 r d)) 1)
  refine point_row (iblk1 V c 0 t) (iblk1 V c 1 t) _ hr _ _ r d _ ?_ ?_
  · show V c main_v36 (((cfg1.win 0).blk t).view.emb (ix2 r (0 : Fin 1))) = V c main_v36 (ix2 _ (0 : Fin 1))
    refine congrArg (V c main_v36) (funext fun a => Fin.ext ?_)
    match a with
    | ⟨0, _⟩ => show win1_0.index t (0 : Fin 2) * 2000 + 1 * r.val = win1_2.index t (0 : Fin 2) * 2000 + 1 * r.val; omega
    | ⟨1, _⟩ => show win1_0.index t (1 : Fin 2) * 1 + 1 * 0 = 0; omega
  · intro b
    show V c main_v35 (((cfg1.win 1).blk t).view.emb (ix2 b d)) = V c main_v35 (ix2 b _)
    refine congrArg (V c main_v35) (funext fun a => Fin.ext ?_)
    match a with
    | ⟨0, _⟩ => show win1_1.index t (0 : Fin 2) * 4096 + 1 * b.val = b.val; omega
    | ⟨1, _⟩ => show win1_1.index t (1 : Fin 2) * 256 + 1 * d.val = win1_2.index t (1 : Fin 2) * 256 + 1 * d.val; omega

/-- An index of the array lies in point `t`'s block exactly when each coordinate lies in the block's range on its axis. -/
theorem mem_block (t : Fin cfg1.N) (i : S500000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v37).slice (win1_2.rect t)).set ↔ _
  rw [View.set_slice_whole, Rect.mem_set_unit]
  exact Iff.rfl

/-- Every index of the output is in some point's block: row `n` in the block of point `n / 2000`, and every point
    writes its block back. -/
theorem covered (i : S500000x256.Idx) :
    ∃ t : Fin cfg1.N, (cfg1.win 2).flush t = true ∧ i ∈ ((cfg1.win 2).blk t).view.set := by
  have hi0 : (i 0).val < 500000 := (i 0).isLt
  have hi1 : (i 1).val < 256 := (i 1).isLt
  have hN : (i 0).val / 2000 < cfg1.N := by
    show (i 0).val / 2000 < grid1.N
    rw [N_1]; omega
  obtain ⟨-, -, -, -, e20, e21⟩ := index_facts ⟨(i 0).val / 2000, hN⟩
  have e20' : win1_2.index ⟨(i 0).val / 2000, hN⟩ (0 : Fin 2) = (i 0).val / 2000 := e20
  refine ⟨⟨(i 0).val / 2000, hN⟩, flush1_2 _, ?_⟩
  rw [mem_block]
  intro a
  match a with
  | ⟨0, _⟩ =>
    show win1_2.index ⟨(i 0).val / 2000, hN⟩ (0 : Fin 2) * 2000 ≤ (i 0).val
      ∧ (i 0).val < win1_2.index ⟨(i 0).val / 2000, hN⟩ (0 : Fin 2) * 2000 + 2000
    omega
  | ⟨1, _⟩ =>
    show win1_2.index ⟨(i 0).val / 2000, hN⟩ (1 : Fin 2) * 256 ≤ (i 1).val
      ∧ (i 1).val < win1_2.index ⟨(i 0).val / 2000, hN⟩ (1 : Fin 2) * 256 + 256
    omega

/-- The output array after the gather's 250 points: at node `n`, the table's row named by the id of `n`. -/
theorem rows_final (c : Dev nD) (hr : ∀ n : Fin 500000, (V c main_v36 (ix2 n (0 : Fin 1))).toNat < 4096) :
    ((dat1 (F := Ideal) V c).arrAt 2 cfg1.N : S500000x256.Idx → EReal)
      = fun i => rowSpec (fun n => V c main_v36 (ix2 n (0 : Fin 1))) hr (fun b d => V c main_v35 (ix2 b d)) (i 0) (i 1) :=
  (dat1 V c).arrAt_eq_of_cover 2 _ (fun t _ => flushed_rows V c hr t) covered

end Cert.KernelIdeal.GatherValue
end
-- ==== Proof.KernelFold.lean ====
/-
  The host side of the kernel's program, read back through its stretches: what the two pallas_calls find in their input
  arrays, and what the two results hold, as functions of the argument arrays. Between the calls the program divides the
  segment sums by the clamped node counts and applies two affine maps; before the second call it masks the columns of
  the high-level embedding and applies two more affine maps to get the per-graph table.
-/
import proofs.«415109_j4879082848572_1_alg».proof.Proof.Gen.KernelIdeal.Frame
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]

/-- The node count of each graph, clamped below by one, spread over the columns: what the segment sums are divided by. -/
def counts (x2 : IVec S500000 32) : FVec F S4096x256 .f32 :=
  broadcastInDim S4096x256 ![0, 1] bcast_S4096x1_S4096x256_0_1 (broadcastInDim S4096x1 ![0] bcast_S4096_S4096x1_0
    (maximumf (Host.scatterAdd scatter_S4096_S500000x1_S500000_n_0_0_1
        (broadcastInDim S4096 ![] bcast_S_S4096 (constant S_ .f32 0x00000000#32))
        (broadcastInDim S500000x1 ![0] bcast_S500000_S500000x1_0 x2)
        (broadcastInDim S500000 ![] bcast_S_S500000 (constant S_ .f32 0x3F800000#32)))
      (broadcastInDim S4096 ![] bcast_S_S4096 (constant S_ .f32 0x3F800000#32))))

/-- From the segment sums to the first result: the mean, then two affine maps. -/
def highTail (seg : FVec F S4096x256 .f32) (x2 : IVec S500000 32) (x5 : FVec F S256x256 .f32) (x6 : FVec F S256 .f32)
    (x7 : FVec F S256x256 .f32) (x8 : FVec F S256 .f32) : FVec F S4096x256 .f32 :=
  addf (Host.dotGeneral dot_S4096x256_S256x256_S4096x256_1_0_0_1_n_n none
      (addf (Host.dotGeneral dot_S4096x256_S256x256_S4096x256_1_0_0_1_n_n none (Host.divf seg (counts x2))
          (transpose S256x256 [1, 0] x5 transposes_S256x256_S256x256_1_0))
        (broadcastInDim S4096x256 ![0, 1] bcast_S1x256_S4096x256_0_1 (broadcastInDim S1x256 ![1] bcast_S256_S1x256_1 x6)))
      (transpose S256x256 [1, 0] x7 transposes_S256x256_S256x256_1_0))
    (broadcastInDim S4096x256 ![0, 1] bcast_S1x256_S4096x256_0_1 (broadcastInDim S1x256 ![1] bcast_S256_S1x256_1 x8))

/-- The high-level embedding with the columns outside the anchor mask zeroed. -/
def masked (x0 : FVec F S4096x256 .f32) (x3 : IVec S256 1) : FVec F S4096x256 .f32 :=
  select (broadcastInDim S4096x256 ![0, 1] bcast_S1x256_S4096x256_0_1 (broadcastInDim S1x256 ![1] bcast_S256_S1x256_1 x3)) x0
    (broadcastInDim S4096x256 ![] bcast_S_S4096x256 (id (constant S_ .f32 0x00000000#32)))

/-- The per-graph table: two affine maps of the masked embedding. -/
def perGraph (x0 : FVec F S4096x256 .f32) (x3 : IVec S256 1) (x9 : FVec F S256x256 .f32) (x10 : FVec F S256 .f32)
    (x11 : FVec F S256x256 .f32) (x12 : FVec F S256 .f32) : FVec F S4096x256 .f32 :=
  addf (Host.dotGeneral dot_S4096x256_S256x256_S4096x256_1_0_0_1_n_n none
      (addf (Host.dotGeneral dot_S4096x256_S256x256_S4096x256_1_0_0_1_n_n none (masked x0 x3)
          (transpose S256x256 [1, 0] x9 transposes_S256x256_S256x256_1_0))
        (broadcastInDim S4096x256 ![0, 1] bcast_S1x256_S4096x256_0_1 (broadcastInDim S1x256 ![1] bcast_S256_S1x256_1 x10)))
      (transpose S256x256 [1, 0] x11 transposes_S256x256_S256x256_1_0))
    (broadcastInDim S4096x256 ![0, 1] bcast_S1x256_S4096x256_0_1 (broadcastInDim S1x256 ![1] bcast_S256_S1x256_1 x12))

variable (m : (ℓ : Loc nD τ sig) → Buf (Elt F) ℓ) (ρ : Dev nD → PrngReg)

/-! ## What the first call finds -/

theorem entry0_ids (c : Dev nD) :
    V3 m ρ c main_v3 = shapeCast S500000x1 (m ((c : Thread nD τ).loc main_arg2)) shapeCasts_S500000_S500000x1 := by
  show StableHlo.after hostOps0_2 (StableHlo.after hostOps0_1 (StableHlo.after hostOps0 (W0 m ρ c))) (Proc.devRef .tc main_v3) = _
  after_results
  rfl

theorem entry0_mask (c : Dev nD) :
    V3 m ρ c main_v4 = shapeCast S500000x1 (extui 32 (m ((c : Thread nD τ).loc main_arg4)) natLt_1_32) shapeCasts_S500000_S500000x1 := by
  show StableHlo.after hostOps0_2 (StableHlo.after hostOps0_1 (StableHlo.after hostOps0 (W0 m ρ c))) (Proc.devRef .tc main_v4) = _
  after_results
  rfl

theorem entry0_rows (c : Dev nD) : V3 m ρ c main_arg1 = m ((c : Thread nD τ).loc main_arg1) := by
  show StableHlo.after hostOps0_2 (StableHlo.after hostOps0_1 (StableHlo.after hostOps0 (W0 m ρ c))) (Proc.devRef .tc main_arg1) = _
  after_results

/-! ## After the first call: its output array at the region's value, every other buffer as it was -/

theorem exit0_seg (c : Dev nD) : W4 m ρ c (Proc.devRef .tc main_v5) = (dat0 (V3 m ρ) c).arrAt 3 cfg0.N :=
  W4_arr m ρ c 3

theorem exit0_arg2 (c : Dev nD) : W4 m ρ c (Proc.devRef .tc main_arg2) = m ((c : Thread nD τ).loc main_arg2) := by
  rw [W4_of_ne m ρ c main_arg2 (by decide)]
  show StableHlo.after hostOps0_2 (StableHlo.after hostOps0_1 (StableHlo.after hostOps0 (W0 m ρ c))) (Proc.devRef .tc main_arg2) = _
  after_results
theorem exit0_arg5 (c : Dev nD) : W4 m ρ c (Proc.devRef .tc main_arg5) = m ((c : Thread nD τ).loc main_arg5) := by
  rw [W4_of_ne m ρ c main_arg5 (by decide)]
  show StableHlo.after hostOps0_2 (StableHlo.after hostOps0_1 (StableHlo.after hostOps0 (W0 m ρ c))) (Proc.devRef .tc main_arg5) = _
  after_results
theorem exit0_arg6 (c : Dev nD) : W4 m ρ c (Proc.devRef .tc main_arg6) = m ((c : Thread nD τ).loc main_arg6) := by
  rw [W4_of_ne m ρ c main_arg6 (by decide)]
  show StableHlo.after hostOps0_2 (StableHlo.after hostOps0_1 (StableHlo.after hostOps0 (W0 m ρ c))) (Proc.devRef .tc main_arg6) = _
  after_results
theorem exit0_arg7 (c : Dev nD) : W4 m ρ c (Proc.devRef .tc main_arg7) = m ((c : Thread nD τ).loc main_arg7) := by
  rw [W4_of_ne m ρ c main_arg7 (by decide)]
  show StableHlo.after hostOps0_2 (StableHlo.after hostOps0_1 (StableHlo.after hostOps0 (W0 m ρ c))) (Proc.devRef .tc main_arg7) = _
  after_results
theorem exit0_arg8 (c : Dev nD) : W4 m ρ c (Proc.devRef .tc main_arg8) = m ((c : Thread nD τ).loc main_arg8) := by
  rw [W4_of_ne m ρ c main_arg8 (by decide)]
  show StableHlo.after hostOps0_2 (StableHlo.after hostOps0_1 (StableHlo.after hostOps0 (W0 m ρ c))) (Proc.devRef .tc main_arg8) = _
  after_results
theorem exit0_arg9 (c : Dev nD) : W4 m ρ c (Proc.devRef .tc main_arg9) = m ((c : Thread nD τ).loc main_arg9) := by
  rw [W4_of_ne m ρ c main_arg9 (by decide)]
  show StableHlo.after hostOps0_2 (StableHlo.after hostOps0_1 (StableHlo.after hostOps0 (W0 m ρ c))) (Proc.devRef .tc main_arg9) = _
  after_results
theorem exit0_arg10 (c : Dev nD) : W4 m ρ c (Proc.devRef .tc main_arg10) = m ((c : Thread nD τ).loc main_arg10) := by
  rw [W4_of_ne m ρ c main_arg10 (by decide)]
  show StableHlo.after hostOps0_2 (StableHlo.after hostOps0_1 (StableHlo.after hostOps0 (W0 m ρ c))) (Proc.devRef .tc main_arg10) = _
  after_results
theorem exit0_arg11 (c : Dev nD) : W4 m ρ c (Proc.devRef .tc main_arg11) = m ((c : Thread nD τ).loc main_arg11) := by
  rw [W4_of_ne m ρ c main_arg11 (by decide)]
  show StableHlo.after hostOps0_2 (StableHlo.after hostOps0_1 (StableHlo.after hostOps0 (W0 m ρ c))) (Proc.devRef .tc main_arg11) = _
  after_results
theorem exit0_arg12 (c : Dev nD) : W4 m ρ c (Proc.devRef .tc main_arg12) = m ((c : Thread nD τ).loc main_arg12) := by
  rw [W4_of_ne m ρ c main_arg12 (by decide)]
  show StableHlo.after hostOps0_2 (StableHlo.after hostOps0_1 (StableHlo.after hostOps0 (W0 m ρ c))) (Proc.devRef .tc main_arg12) = _
  after_results

/-- The masked embedding was computed before the first call and is untouched by it. -/
theorem exit0_masked (c : Dev nD) :
    W4 m ρ c (Proc.devRef .tc main_v1) = masked (m ((c : Thread nD τ).loc main_arg0)) (m ((c : Thread nD τ).loc main_arg3)) := by
  rw [W4_of_ne m ρ c main_v1 (by decide)]
  show StableHlo.after hostOps0_2 (StableHlo.after hostOps0_1 (StableHlo.after hostOps0 (W0 m ρ c))) (Proc.devRef .tc main_v1) = _
  after_results
  rfl

/-! ## What the second call finds, and the two results -/

theorem entry1_ids (c : Dev nD) :
    V5 m ρ c main_v36 = shapeCast S500000x1 (m ((c : Thread nD τ).loc main_arg2)) shapeCasts_S500000_S500000x1 := by
  show StableHlo.after hostOps1 (W4 m ρ c) (Proc.devRef .tc main_v36) = _
  after_results_simp
  rw [exit0_arg2]
  rfl

theorem entry1_table (c : Dev nD) :
    V5 m ρ c main_v35 = truncf .bf16 (perGraph (m ((c : Thread nD τ).loc main_arg0)) (m ((c : Thread nD τ).loc main_arg3))
      (m ((c : Thread nD τ).loc main_arg9)) (m ((c : Thread nD τ).loc main_arg10)) (m ((c : Thread nD τ).loc main_arg11))
      (m ((c : Thread nD τ).loc main_arg12))) bitsLt_bf16_f32 := by
  show StableHlo.after hostOps1 (W4 m ρ c) (Proc.devRef .tc main_v35) = _
  after_results_simp
  rw [exit0_masked, exit0_arg9, exit0_arg10, exit0_arg11, exit0_arg12]
  rfl

/-- The first result: the host chain applied to the first call's output array. -/
theorem result_high (c : Dev nD) :
    W6 m ρ c (Proc.devRef .tc main_v24) = highTail ((dat0 (V3 m ρ) c).arrAt 3 cfg0.N) (m ((c : Thread nD τ).loc main_arg2))
      (m ((c : Thread nD τ).loc main_arg5)) (m ((c : Thread nD τ).loc main_arg6)) (m ((c : Thread nD τ).loc main_arg7))
      (m ((c : Thread nD τ).loc main_arg8)) := by
  rw [W6_of_ne m ρ c main_v24 (by decide)]
  show StableHlo.after hostOps1 (W4 m ρ c) (Proc.devRef .tc main_v24) = _
  after_results_simp
  rw [exit0_seg, exit0_arg2, exit0_arg5, exit0_arg6, exit0_arg7, exit0_arg8]
  rfl

/-- The second result: the second call's output array. -/
theorem result_low (c : Dev nD) : W6 m ρ c (Proc.devRef .tc main_v37) = (dat1 (V5 m ρ) c).arrAt 2 cfg1.N :=
  W6_arr m ρ c 2

end Cert.KernelIdeal.Fold

end
-- ==== Proof.RefRead.lean ====
/-
  The reference's two data-dependent operations, read at an index.

  The segment sum is a scatter-add into a table of zeros: update `(n, d')` goes to row `id n` (read signed), column
  `d'`, and is dropped when that row is outside the table. Entry `(b, d)` therefore collects exactly the updates with
  `id n = b` and `d' = d`; an update is the embedding entry where the node is kept and zero where it is not.

  The row read is a gather: result `(n, d)` is the table at row `id n` (wrapped when negative, then clamped into the
  table), column `d`. For ids that all name a row the wrap and the clamp do nothing.
-/
import proofs.«415109_j4879082848572_1_alg».proof.Proof.Gen.ReferenceIdeal.Run
import proofs.«415109_j4879082848572_1_alg».proof.Proof.Gen.ReferenceIdeal.Read
import proofs.«415109_j4879082848572_1_alg».proof.Proof.Spec
import Idealize.ShloMosaic.Lib.StableHlo.Predicate

noncomputable section

open scoped BigOperators
namespace Cert.ReferenceIdeal.RefValue
open Cert.ReferenceIdeal Cert.ReferenceIdeal.Gen Idealize.ShloMosaic Idealize.ShloMosaic.ValueIdx Cert.Blend

/-! ## The gather's index arithmetic -/

local notation "GD" => gather_S4096x256_S500000x1_S500000x256_1_0_n_n_0_1_1256

/-- The start-index entry a result index reads: row `n` of the id column. -/
private theorem gd_si (n : Fin 500000) (d : Fin 256) (c : Fin (GatherDims.startIndexMap GD).length) :
    GatherDims.siIdx GD (ix2 n d) c = ix2 n 0 := by
  funext b
  match b with
  | ⟨0, _⟩ =>
    unfold GatherDims.siIdx
    rw [dif_neg]
    · rfl
    · exact Nat.zero_ne_one
  | ⟨1, _⟩ =>
    unfold GatherDims.siIdx
    rw [dif_pos]
    · apply Fin.ext
      show c.val = 0
      have : c.val < 1 := c.isLt
      omega
    · rfl

/-- On the row axis the slice starts at the id read signed, clamped into the table. -/
private theorem gd_start0 (idx : IVec S500000x1 32) (n : Fin 500000) (d : Fin 256) :
    GatherDims.start GD (ix2 n d) idx 0 = min (idx (ix2 n 0)).toInt.toNat 4095 := by
  unfold GatherDims.start
  rw [dif_pos (show (0 : Fin 2) ∈ GatherDims.startIndexMap GD from List.mem_singleton.mpr rfl), gd_si]
  rfl

/-- On the column axis the slice starts at zero. -/
private theorem gd_start1 (idx : IVec S500000x1 32) (n : Fin 500000) (d : Fin 256) :
    GatherDims.start GD (ix2 n d) idx 1 = 0 := by
  unfold GatherDims.start
  rw [dif_neg (show ¬ (1 : Fin 2) ∈ GatherDims.startIndexMap GD by decide)]

/-- The gather at `(n, d)`: the table at the clamped id's row, column `d`. -/
private theorem gather_row {α : Type} (pg : S4096x256.Idx → α) (idx : IVec S500000x1 32) (n : Fin 500000) (d : Fin 256)
    (h : min (idx (ix2 n 0)).toInt.toNat 4095 < 4096) :
    Host.gather GD pg idx (ix2 n d) = pg (ix2 ⟨min (idx (ix2 n 0)).toInt.toNat 4095, h⟩ d) := by
  unfold Host.gather
  congr 1
  funext a
  refine Fin.ext ?_
  match a with
  | ⟨0, _⟩ =>
    show GatherDims.start GD (ix2 n d) idx 0 + GatherDims.batchCoord GD (ix2 n d) 0 + GatherDims.offCoord GD (ix2 n d) 0 = _
    rw [gd_start0, GatherDims.batchCoord_eq_zero _ _ _ List.not_mem_nil,
      GatherDims.offCoord_eq_zero _ _ _ (fun h => ((GatherDims.mem_sKept _ _).mp h).1 (List.mem_singleton.mpr rfl))]
    rfl
  | ⟨1, _⟩ =>
    show GatherDims.start GD (ix2 n d) idx 1 + GatherDims.batchCoord GD (ix2 n d) 1 + GatherDims.offCoord GD (ix2 n d) 1 = _
    rw [gd_start1, GatherDims.batchCoord_eq_zero _ _ _ List.not_mem_nil]
    unfold GatherDims.offCoord
    rw [dif_pos (by decide)]
    simp only [Nat.zero_add, Nat.add_zero]
    rfl

/-! ## The gathered rows -/

/-- Under the range hypothesis the wrapped id (the id plus the row count where it is negative) is the id itself. -/
private theorem wrapped_id (x2 : (⟨S500000, .i32⟩ : BufTy).Contents (Elt Ideal)) (n : Fin 500000)
    (h : (x2 (ix1 n)).toNat < 4096) :
    Read.val_main_v41 (F := Ideal) x2 (ix2 n 0) = x2 (ix1 n) := by
  have e : Read.idx_main_v41 (ix2 n (0 : Fin 1)) = ix1 n := funext fun a => Fin.ext (by match a with | ⟨0, _⟩ => rfl)
  rw [Read.val_main_v41_apply, e, Read.val_main_v40_apply, Read.val_main_v37_apply, Read.val_main_v36_apply,
    Read.val_main_c_apply]
  have hz : IntOp.cmpi .slt (x2 (ix1 n)) 0#32 = 0#1 := by
    apply eq_zero_of_ne_one
    rw [StableHlo.Predicate.slt_iff_toNat (by omega) (by decide)]
    simp
  rw [hz, select_zero]

theorem rows_apply (x0 : (⟨S4096x256, .f32⟩ : BufTy).Contents (Elt Ideal)) (x2 : (⟨S500000, .i32⟩ : BufTy).Contents (Elt Ideal))
    (x3 : (⟨S256, .i1⟩ : BufTy).Contents (Elt Ideal)) (x9 : (⟨S256x256, .f32⟩ : BufTy).Contents (Elt Ideal))
    (x10 : (⟨S256, .f32⟩ : BufTy).Contents (Elt Ideal)) (x11 : (⟨S256x256, .f32⟩ : BufTy).Contents (Elt Ideal))
    (x12 : (⟨S256, .f32⟩ : BufTy).Contents (Elt Ideal))
    (hr : ∀ n : Fin 500000, (x2 (ix1 n)).toNat < 4096) (n : Fin 500000) (d : Fin 256) :
    Read.val_main_v42 (F := Ideal) x0 x2 x3 x9 x10 x11 x12 (ix2 n d)
      = rowSpec (fun n => x2 (ix1 n)) hr (fun b d => Read.val_main_v35 (F := Ideal) x0 x3 x9 x10 x11 x12 (ix2 b d)) n d := by
  unfold Read.val_main_v42 rowSpec
  have hn := hr n
  have hv : min (Read.val_main_v41 (F := Ideal) x2 (ix2 n 0)).toInt.toNat 4095 = (x2 (ix1 n)).toNat := by
    rw [wrapped_id x2 n hn, StableHlo.Predicate.toInt_eq_toNat_of_lt (by omega)]
    simp only [Int.toNat_natCast]
    omega
  rw [gather_row _ _ n d (by rw [hv]; exact hn)]
  congr 2
  exact Fin.ext hv

/-! ## The scatter's index arithmetic -/

local notation "SD" => scatter_S4096x256_S500000x1_S500000x256_1_0_0_1

/-- The scatter-index entry an update index reads: row `n` of the id column. -/
private theorem sd_si (n : Fin 500000) (d' : Fin 256) (c : Fin (ScatterDims.scatterDimsToOperandDims SD).length) :
    ScatterDims.siIdx SD (ix2 n d') c = ix2 n 0 := by
  funext b
  match b with
  | ⟨0, _⟩ =>
    unfold ScatterDims.siIdx
    rw [dif_neg]
    · rfl
    · exact Nat.zero_ne_one
  | ⟨1, _⟩ =>
    unfold ScatterDims.siIdx
    rw [dif_pos]
    · apply Fin.ext
      show c.val = 0
      have : c.val < 1 := c.isLt
      omega
    · rfl

/-- On the row axis an update's window starts at its id read signed. -/
private theorem sd_start0 (idx : IVec S500000x1 32) (n : Fin 500000) (d' : Fin 256) :
    ScatterDims.start SD (ix2 n d') idx 0 = (idx (ix2 n 0)).toInt := by
  unfold ScatterDims.start
  rw [dif_pos (show (0 : Fin 2) ∈ ScatterDims.scatterDimsToOperandDims SD from List.mem_singleton.mpr rfl), sd_si]

/-- On the column axis an update's window starts at zero. -/
private theorem sd_start1 (idx : IVec S500000x1 32) (n : Fin 500000) (d' : Fin 256) :
    ScatterDims.start SD (ix2 n d') idx 1 = 0 := by
  unfold ScatterDims.start
  rw [dif_neg (show ¬ (1 : Fin 2) ∈ ScatterDims.scatterDimsToOperandDims SD by decide)]

/-- The row axis is inserted: no window coordinate there. -/
private theorem sd_window0 (n : Fin 500000) (d' : Fin 256) : ScatterDims.window SD (ix2 n d') 0 = 0 := by
  unfold ScatterDims.window
  rw [dif_neg (show ¬ (0 : Fin 2) ∈ ScatterDims.sKept SD by decide)]

/-- The column axis carries the update's column. -/
private theorem sd_window1 (n : Fin 500000) (d' : Fin 256) : ScatterDims.window SD (ix2 n d') 1 = d'.val := by
  unfold ScatterDims.window
  rw [dif_pos (show (1 : Fin 2) ∈ ScatterDims.sKept SD by decide)]
  rfl

/-- Where an update lands: update `(n, d')` goes to row `(id n)` read signed, column `d'`, and is dropped when that row
    is outside the table. So it lands at `(b, d)` exactly when the signed id is `b` and `d' = d`. -/
private theorem lands_iff (idx : IVec S500000x1 32) (n : Fin 500000) (d' : Fin 256) (b : Fin 4096) (d : Fin 256) :
    ScatterDims.resultIdx? SD (ix2 n d') idx = some (ix2 b d) ↔ (idx (ix2 n 0)).toInt = (b.val : Int) ∧ d' = d := by
  have hb := b.isLt
  have hd' := d'.isLt
  unfold ScatterDims.resultIdx?
  split
  · rename_i h
    rw [Option.some.injEq]
    constructor
    · intro e
      have e0 := congrArg Fin.val (congrFun e 0)
      have e1 := congrArg Fin.val (congrFun e 1)
      have h0 := (h 0).1
      simp only [sd_start0, sd_window0, sd_start1, sd_window1] at e0 e1 h0
      refine ⟨?_, Fin.ext ?_⟩
      · have : ((ix2 b d : S4096x256.Idx) 0).val = b.val := rfl
        omega
      · have : ((ix2 b d : S4096x256.Idx) 1).val = d.val := rfl
        omega
    · rintro ⟨e0, rfl⟩
      funext a
      refine Fin.ext ?_
      match a with
      | ⟨0, _⟩ =>
        show (ScatterDims.start SD (ix2 n d') idx 0 + (ScatterDims.window SD (ix2 n d') 0 : Nat)).toNat = b.val
        rw [sd_start0, sd_window0, e0]; simp
      | ⟨1, _⟩ =>
        show (ScatterDims.start SD (ix2 n d') idx 1 + (ScatterDims.window SD (ix2 n d') 1 : Nat)).toNat = d'.val
        rw [sd_start1, sd_window1]; simp
  · rename_i h
    constructor
    · intro e; exact absurd e (by simp)
    · rintro ⟨e0, rfl⟩
      exfalso; apply h
      intro a
      match a with
      | ⟨0, _⟩ =>
        show 0 ≤ ScatterDims.start SD (ix2 n d') idx 0 + (ScatterDims.window SD (ix2 n d') 0 : Nat) ∧
          ScatterDims.start SD (ix2 n d') idx 0 + (ScatterDims.window SD (ix2 n d') 0 : Nat) < (4096 : Nat)
        rw [sd_start0, sd_window0, e0]; omega
      | ⟨1, _⟩ =>
        show 0 ≤ ScatterDims.start SD (ix2 n d') idx 1 + (ScatterDims.window SD (ix2 n d') 1 : Nat) ∧
          ScatterDims.start SD (ix2 n d') idx 1 + (ScatterDims.window SD (ix2 n d') 1 : Nat) < (256 : Nat)
        rw [sd_start1, sd_window1]; omega

/-! ## The segment sum -/

/-- A word whose signed value is a row number below 4096 is that number's word, and conversely. -/
private theorem word_iff (w : BitVec 32) (b : Fin 4096) : w.toInt = (b.val : Int) ↔ BitVec.ofNat 32 b.val = w := by
  have hb := b.isLt
  rw [ofNat_eq_iff _ (by omega)]
  constructor
  · intro h
    have hw := w.isLt
    unfold BitVec.toInt at h
    split at h <;> omega
  · intro h
    rw [StableHlo.Predicate.toInt_eq_toNat_of_lt (by omega), h]

/-- The id column at row `n` is the id of node `n`. -/
private theorem ids_col (x2 : (⟨S500000, .i32⟩ : BufTy).Contents (Elt Ideal)) (n : Fin 500000) :
    Read.val_main_v5 (F := Ideal) x2 (ix2 n 0) = x2 (ix1 n) := by
  have e : Read.idx_main_v5 (ix2 n (0 : Fin 1)) = ix1 n := funext fun a => Fin.ext (by match a with | ⟨0, _⟩ => rfl)
  rw [Read.val_main_v5_apply, e]

/-- The update at `(n, d)`: the embedding entry where the node is kept, zero where it is not. -/
private theorem upd_apply (x1 : (⟨S500000x256, .f32⟩ : BufTy).Contents (Elt Ideal)) (x4 : (⟨S500000, .i1⟩ : BufTy).Contents (Elt Ideal))
    (n : Fin 500000) (d : Fin 256) :
    Read.val_main_v3 (F := Ideal) x1 x4 (ix2 n d) = Scalar.select (x4 (ix1 n)) (x1 (ix2 n d)) (0 : EReal) := by
  have e : Read.idx_main_v2 (Read.idx_main_call1_v1 (ix2 n d)) = ix1 n :=
    funext fun a => Fin.ext (by match a with | ⟨0, _⟩ => rfl)
  rw [Read.val_main_v3_apply, Read.val_main_call1_v1_apply, Read.val_main_v2_apply, e, Read.val_main_call1_v2_apply,
    Read.val_main_call1_v0_apply, Read.val_main_cst_0_apply, Ideal.ofBits_def, Ideal.ofBits_zero_f32]

/-- What node `n` adds to entry `(b, d)`: of its 256 updates only column `d` can land there, and it does when the id
    is `b`; it is the embedding entry when the node is kept, zero otherwise. -/
private theorem node_sum (x1 : (⟨S500000x256, .f32⟩ : BufTy).Contents (Elt Ideal)) (x2 : (⟨S500000, .i32⟩ : BufTy).Contents (Elt Ideal))
    (x4 : (⟨S500000, .i1⟩ : BufTy).Contents (Elt Ideal)) (n : Fin 500000) (b : Fin 4096) (d : Fin 256) :
    (∑ d' : Fin 256, if ScatterDims.resultIdx? SD (ix2 n d') (Read.val_main_v5 (F := Ideal) x2) = some (ix2 b d)
        then Read.val_main_v3 (F := Ideal) x1 x4 (ix2 n d') else (0 : EReal))
      = if (x4 (ix1 n) == 1#1) = true ∧ BitVec.ofNat 32 b.val = x2 (ix1 n) then x1 (ix2 n d) else 0 := by
  simp only [lands_iff, ids_col, word_iff]
  by_cases hid : BitVec.ofNat 32 b.val = x2 (ix1 n)
  · rw [Finset.sum_eq_single d]
    · rw [if_pos ⟨hid, rfl⟩, upd_apply]
      by_cases hk : x4 (ix1 n) = 1#1
      · rw [hk, select_one, if_pos ⟨rfl, hid⟩]
      · rw [eq_zero_of_ne_one hk, select_zero, if_neg (fun h => by simp at h)]
    · intro d' _ hne
      rw [if_neg (fun h => hne h.2)]
    · intro h; exact absurd (Finset.mem_univ _) h
  · rw [Finset.sum_eq_zero (fun d' _ => if_neg (fun h => hid h.1)), if_neg (fun h => hid h.2)]

theorem seg_apply (x1 : (⟨S500000x256, .f32⟩ : BufTy).Contents (Elt Ideal)) (x2 : (⟨S500000, .i32⟩ : BufTy).Contents (Elt Ideal))
    (x4 : (⟨S500000, .i1⟩ : BufTy).Contents (Elt Ideal)) (b : Fin 4096) (d : Fin 256) :
    Read.val_main_v6 (F := Ideal) x1 x2 x4 (ix2 b d)
      = segSpec (fun n => x2 (ix1 n)) (fun n => x4 (ix1 n) == 1#1) (fun n d => x1 (ix2 n d)) b d := by
  unfold Read.val_main_v6 Host.scatterAdd segSpec
  rw [Ideal.hostScatterAdd_def]
  unfold Ideal.hostScatterAdd
  rw [Finset.sum_filter, sum_idx2]
  have hz : Read.val_main_v4 (F := Ideal) (ix2 b d) = 0 := by
    rw [Read.val_main_v4_apply, Read.val_main_cst_1_apply, Ideal.ofBits_def, Ideal.ofBits_zero_f32]
  rw [hz, zero_add]
  exact Finset.sum_congr rfl (fun n _ => node_sum x1 x2 x4 n b d)

end Cert.ReferenceIdeal.RefValue
end
-- ==== Proof.Bridge.lean ====
/-
  Each of the kernel's two results is the reference's function of the same arguments.

  The first: the first pallas_call leaves the masked segment sums (the closed form over the ids, the mask and the node
  rows), which is what the reference's scatter-add computes entry by entry; from there both programs apply the same
  host operations. The second: both programs build the same per-graph table on the host, and for ids that name a row
  the second pallas_call's one-hot product and the reference's gather both read row `ids n` of it.
-/
import proofs.«415109_j4879082848572_1_alg».proof.Proof.SegValue
import proofs.«415109_j4879082848572_1_alg».proof.Proof.GatherValue
import proofs.«415109_j4879082848572_1_alg».proof.Proof.KernelFold
import proofs.«415109_j4879082848572_1_alg».proof.Proof.RefRead

set_option maxRecDepth 16384

noncomputable section

namespace Cert.Bridge

open Cert.Blend
open Idealize.ShloMosaic Idealize.ShloMosaic.TcCoe Idealize.SL.Sem Idealize.ShloMosaic.ValueIdx

/-- A vector viewed as a column reads, at `(r, 0)`, the vector at `r`. -/
theorem toCol_apply {α : Type} {n : ℕ} (x : (⟨1, ![n]⟩ : Shape).Idx → α)
    (h : (⟨1, ![n]⟩ : Shape).ShapeCasts ⟨2, ![n, 1]⟩) (r : Fin n) :
    shapeCast ⟨2, ![n, 1]⟩ x h (ix2 r (0 : Fin 1)) = x (ix1 r) :=
  shapeCast_apply x h _ _ (by
    rw [Shape.rowMajor_val_one, Shape.rowMajor_val_two]
    show r.val = r.val * 1 + 0
    omega)

/-- A mask bit widened to a word is not zero exactly when the bit is set. -/
theorem bit_ne_zero : ∀ b : BitVec 1, (b.setWidth 32 != 0#32) = (b == 1#1) := by decide

variable (m : (ℓ : Loc Cert.KernelIdeal.nD Cert.KernelIdeal.τ Cert.KernelIdeal.sig) → Buf (Elt Ideal) ℓ)
  (ρ : Dev Cert.KernelIdeal.nD → PrngReg)

/-- The first pallas_call's output array is the reference's segment sum of the same arrays. -/
theorem seg_eq (c : Dev Cert.KernelIdeal.nD) :
    ((Cert.KernelIdeal.Gen.dat0 (F := Ideal) (Cert.KernelIdeal.Gen.V3 m ρ) c).arrAt 3 Cert.KernelIdeal.cfg0.N
        : Cert.KernelIdeal.S4096x256.Idx → EReal)
      = Cert.ReferenceIdeal.Read.val_main_v6 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg4)) := by
  rw [Cert.KernelIdeal.SegValue.seg_final]
  funext i
  obtain ⟨b, d, rfl⟩ : ∃ (b : Fin 4096) (d : Fin 256), i = ix2 b d := ⟨i 0, i 1, eq_ix2 i⟩
  rw [Cert.ReferenceIdeal.RefValue.seg_apply]
  show segSpec _ _ _ b d = segSpec _ _ _ b d
  rw [Cert.KernelIdeal.Fold.entry0_ids, Cert.KernelIdeal.Fold.entry0_mask, Cert.KernelIdeal.Fold.entry0_rows]
  refine congrArg₂ (fun ids keep => segSpec ids keep _ b d) (funext fun n => ?_) (funext fun n => ?_)
  · exact toCol_apply _ _ n
  · rw [toCol_apply]
    exact bit_ne_zero _

/-- The first result. -/
theorem high_eq (c : Dev Cert.KernelIdeal.nD) :
    Cert.KernelIdeal.Gen.W6 m ρ c (Proc.devRef .tc Cert.KernelIdeal.main_v24)
      = Cert.ReferenceIdeal.Read.val_main_v25 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) := by
  rw [Cert.KernelIdeal.Fold.result_high, seg_eq]
  rfl

/-- The second result, for ids that all name a row of the table. -/
theorem low_eq (c : Dev Cert.KernelIdeal.nD)
    (hr : ∀ n : Fin 500000,
      (m ((c.tc : Thread Cert.KernelIdeal.nD Cert.KernelIdeal.τ).loc Cert.KernelIdeal.main_arg2) (ix1 n)).toNat < 4096) :
    Cert.KernelIdeal.Gen.W6 m ρ c (Proc.devRef .tc Cert.KernelIdeal.main_v37)
      = Cert.ReferenceIdeal.Read.val_main_v42 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12)) := by
  have hcol : ∀ n : Fin 500000, Cert.KernelIdeal.Gen.V5 m ρ c Cert.KernelIdeal.main_v36 (ix2 n (0 : Fin 1))
      = m ((c.tc : Thread Cert.KernelIdeal.nD Cert.KernelIdeal.τ).loc Cert.KernelIdeal.main_arg2) (ix1 n) := fun n => by
    rw [Cert.KernelIdeal.Fold.entry1_ids]
    exact toCol_apply _ _ n
  have hr' : ∀ n : Fin 500000, (Cert.KernelIdeal.Gen.V5 m ρ c Cert.KernelIdeal.main_v36 (ix2 n (0 : Fin 1))).toNat < 4096 :=
    fun n => by rw [hcol]; exact hr n
  rw [Cert.KernelIdeal.Fold.result_low]
  refine (Cert.KernelIdeal.GatherValue.rows_final (Cert.KernelIdeal.Gen.V5 m ρ) c hr').trans ?_
  funext i
  obtain ⟨n, d, rfl⟩ : ∃ (n : Fin 500000) (d : Fin 256), i = ix2 n d := ⟨i 0, i 1, eq_ix2 i⟩
  rw [Cert.ReferenceIdeal.RefValue.rows_apply _ _ _ _ _ _ _ hr]
  show rowSpec _ hr' _ n d = rowSpec _ hr _ n d
  unfold rowSpec
  have hk : (⟨(Cert.KernelIdeal.Gen.V5 m ρ c Cert.KernelIdeal.main_v36 (ix2 n (0 : Fin 1))).toNat, hr' n⟩ : Fin 4096)
      = ⟨(m ((c.tc : Thread Cert.KernelIdeal.nD Cert.KernelIdeal.τ).loc Cert.KernelIdeal.main_arg2) (ix1 n)).toNat, hr n⟩ :=
    Fin.ext (congrArg BitVec.toNat (hcol n))
  rw [hk, Cert.KernelIdeal.Fold.entry1_table]
  rfl

end Cert.Bridge

end
-- ==== Proof.PreRange.lean ====
/-
  The printed precondition ends in two conjuncts about the graph ids: every id is at least 0 and every id is
  below 4096, both compared as signed 32-bit numbers and both folded over all 500000 nodes by `and`. A word that
  is non-negative as a signed number has its top bit clear, so its signed and unsigned readings agree; hence each
  id, read as a natural number, is below 4096. The ten conjuncts about the float inputs are never opened: the
  outer conjunction is split from the outside and only its last two members are read.
-/
import proofs.«415109_j4879082848572_1_alg».proof.Defs
import proofs.«415109_j4879082848572_1_alg».proof.Proof.Gen.Pre_finite_inputs
import Idealize.ShloMosaic.Lib.ValueIdx
import Idealize.ShloMosaic.Lib.ReduceAll

noncomputable section
namespace Cert.Pre_finite_inputs.Range
open Cert.Pre_finite_inputs Idealize.ShloMosaic Idealize.ShloMosaic.ValueIdx

/-- The scalar shape has exactly one index. -/
private instance : Subsingleton S_.Idx := ⟨fun a b => funext fun d => d.elim0⟩

/-- A 32-bit word that is at least 0 and below 4096 as a signed number is below 4096 as an unsigned one:
    a non-negative signed reading means the word is below 2³¹, where the two readings coincide. -/
private theorem toNat_lt_of_signed (w : BitVec 32) (h0 : IntOp.cmpi .sge w 0#32 = 1#1)
    (h1 : IntOp.cmpi .slt w 4096#32 = 1#1) : w.toNat < 4096 := by
  rw [IntOp.cmpi_sge] at h0
  rw [IntOp.cmpi_slt] at h1
  have hw := w.isLt
  have hz : (0#32 : BitVec 32).toInt = 0 := by decide
  have hc : (4096#32 : BitVec 32).toInt = 4096 := by decide
  rw [hz] at h0
  rw [hc] at h1
  rw [BitVec.toInt_eq_toNat_cond] at h0 h1
  split at h1 <;> omega

/-- The tail of the printed conjunction, read at one node: if the last part of the precondition is 1, then the
    comparison array it was handed is 1 at every node, and every id is below 4096 as a signed number. -/
private theorem tail_decode [Facts] {F : FTy → Type} [FloatOps F] (a2 : IVec S500000 32) (v48 : IVec S_ 1)
    (v50 : IVec S500000 1) (e : fn_part3 (F := F) a2 v48 v50 ix0 = 1#1) (i : S500000.Idx) :
    v50 i = 1#1 ∧ IntOp.cmpi .slt (a2 i) 4096#32 = 1#1 := by
  unfold fn_part3 at e
  obtain ⟨e52, e55⟩ := IntOp.andi_eq_one.1 e
  obtain ⟨-, e51⟩ := IntOp.andi_eq_one.1 e52
  exact ⟨Host.reduce_andi_all _ _ _ _ _ e51 i, Host.reduce_andi_all _ _ _ _ _ e55 i⟩

theorem ids_in_range [Cert.Pre_finite_inputs.Facts] {F : FTy → Type} [FloatOps F]
    (a0 : FVec F S4096x256 .f32) (a1 : FVec F S500000x256 .f32) (a2 : IVec S500000 32) (a3 : IVec S256 1) (a4 : IVec S500000 1)
    (a5 : FVec F S256x256 .f32) (a6 : FVec F S256 .f32) (a7 : FVec F S256x256 .f32) (a8 : FVec F S256 .f32)
    (a9 : FVec F S256x256 .f32) (a10 : FVec F S256 .f32) (a11 : FVec F S256x256 .f32) (a12 : FVec F S256 .f32)
    (h : Cert.Pre_finite_inputs.fn (F := F) a0 a1 a2 a3 a4 a5 a6 a7 a8 a9 a10 a11 a12 = fun _ => 1#1) :
    ∀ n : Fin 500000, (a2 (ix1 n)).toNat < 4096 := by
  intro n
  -- the whole precondition, unfolded down to its last part: the float conjuncts stay folded in the second argument
  have e : fn_part3 (F := F) a2 _
      (cmpi .sge a2 (broadcastInDim S500000 ![] Facts.bcast_S_S500000 (constantI S_ 32 0#32))) ix0 = 1#1 :=
    congrFun h ix0
  obtain ⟨h0, h1⟩ := tail_decode a2 _ _ e (ix1 n)
  exact toNat_lt_of_signed _ h0 h1

end Cert.Pre_finite_inputs.Range
end
-- ==== Proof.lean ====
/-
  The kernel computes, per graph, the mean of its masked node embeddings through two affine maps, and, per node, two
  affine maps of its graph's masked high-level embedding; the reference computes the same with a scatter-add and a
  gather on the host. Over the extended reals the two agree once every graph id names one of the 4096 graphs:

    * the segment sums: the kernel's first pallas_call adds up, tile by tile, products of a one-hot matrix with the node
      rows; entry (b, d) ends at the sum of the kept rows whose id is b, which is the scatter-add's value there (an id
      that names no graph is dropped by both);
    * the node counts, the mean and the two affine maps are the same host operations in both programs;
    * the per-graph table is the same host operations in both programs, and the kernel's second pallas_call multiplies
      a one-hot matrix with it: row n of the product is the table's row `ids n`, which is what the gather reads when
      the id is in range (outside the range the gather wraps and clamps while the one-hot row is empty: hence the
      range in the precondition).

  The frames of the two kernel programs are the generated ones; the reference's is its generated run with the results
  dropped; the idealization rewrote nothing.
-/
import proofs.«415109_j4879082848572_1_alg».proof.Defs
import proofs.«415109_j4879082848572_1_alg».proof.Proof.Gen.Kernel
import proofs.«415109_j4879082848572_1_alg».proof.Proof.Gen.Kernel.Skeleton
import proofs.«415109_j4879082848572_1_alg».proof.Proof.Gen.Kernel.Launch
import proofs.«415109_j4879082848572_1_alg».proof.Proof.Gen.Kernel.Points
import proofs.«415109_j4879082848572_1_alg».proof.Proof.Gen.Kernel.Frame
import proofs.«415109_j4879082848572_1_alg».proof.Proof.Gen.KernelIdeal
import proofs.«415109_j4879082848572_1_alg».proof.Proof.Gen.KernelIdeal.Skeleton
import proofs.«415109_j4879082848572_1_alg».proof.Proof.Gen.KernelIdeal.Launch
import proofs.«415109_j4879082848572_1_alg».proof.Proof.Gen.KernelIdeal.Points
import proofs.«415109_j4879082848572_1_alg».proof.Proof.Gen.KernelIdeal.Frame
import proofs.«415109_j4879082848572_1_alg».proof.Proof.Gen.ReferenceIdeal
import proofs.«415109_j4879082848572_1_alg».proof.Proof.Gen.ReferenceIdeal.Run
import proofs.«415109_j4879082848572_1_alg».proof.Proof.Gen.ReferenceIdeal.Read
import proofs.«415109_j4879082848572_1_alg».proof.Proof.Gen.Pre_finite_inputs
import proofs.«415109_j4879082848572_1_alg».proof.Proof.KernelRun
import proofs.«415109_j4879082848572_1_alg».proof.Proof.Bridge
import proofs.«415109_j4879082848572_1_alg».proof.Proof.PreRange
import Idealize.ShloMosaic.Adequacy
import Idealize.ShloMosaic.Init

set_option maxRecDepth 16384

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the arguments, under the precondition, both programs end with the same two results:
    the kernel's, read off its run, are the reference's stage functions of the same arguments. -/
theorem algebraic : Cert.algebraic_KernelIdeal_ReferenceIdeal := by
  intro m ρ m' ρ' hpre hagree
  have hr : ∀ (c : Dev Cert.KernelIdeal.nD) (n : Fin 500000),
      (m ((c.tc : Thread Cert.KernelIdeal.nD Cert.KernelIdeal.τ).loc Cert.KernelIdeal.main_arg2) (ix1 n)).toNat < 4096 :=
    fun c => Cert.Pre_finite_inputs.Range.ids_in_range (F := Ideal) _ _ _ _ _ _ _ _ _ _ _ _ _ (hpre c)
  refine ⟨fun c => Cert.KernelIdeal.Gen.W6 m ρ c (Proc.devRef .tc Cert.KernelIdeal.main_v24),
    fun c => Cert.KernelIdeal.Gen.W6 m ρ c (Proc.devRef .tc Cert.KernelIdeal.main_v37),
    Cert.KernelIdeal.Run.run_results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12⟩ := hagree c
    rw [e1, e2, e4, e5, e6, e7, e8]
    exact (Cert.ReferenceIdeal.Read.val_main_v25_eq (F := Ideal) _ _ _ _ _ _ _).trans (Cert.Bridge.high_eq m ρ c).symm
  · obtain ⟨e0, e1, e2, e3, e4, e5, e6, e7, e8, e9, e10, e11, e12⟩ := hagree c
    rw [e0, e2, e3, e9, e10, e11, e12]
    exact (Cert.ReferenceIdeal.Read.val_main_v42_eq (F := Ideal) _ _ _ _ _ _ _).trans (Cert.Bridge.low_eq m ρ c (hr c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
